-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x16 : Shape := ⟨2, ![2, 16]⟩
abbrev S16 : Shape := ⟨1, ![16]⟩
abbrev S2x6400000 : Shape := ⟨2, ![2, 6400000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S2x16 .f32) (main_arg8 : FVec F S16 .f32) (main_v33 : IVec S_ 1) : IVec S_ 1 :=
  let main_v34 : FVec F S2x16 .f32 := Host.absf main_arg7
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S4 .f32) (main_arg5 : FVec F S4x2 .f32) (main_arg6 : FVec F S2 .f32) (main_arg7 : FVec F S2x16 .f32) (main_arg8 : FVec F S16 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x2 .f32 := Host.absf main_arg5
  let main_cst_8 : FVec F S_ .f32 := constant S_ .f32 0x7F800000#32
  let main_v25 : FVec F S4x2 .f32 := broadcastInDim S4x2 ![] bcast_S_S4x2 main_cst_8
  let main_v26 : IVec S4x2 1 := cmpf .olt main_v24 main_v25
  let main_c_9 : IVec S_ 1 := constantI S_ 1 1#1
  let main_v27 : IVec S_ 1 := (fun x v => Host.reduce IntOp.andi x v reducesTo_S4x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg7 main_arg8 main_v33

def fn {F : FTy → Type} [FloatOps F] (main_arg0 : FVec F S200000x128 .f32) (main_arg1 : FVec F S128x4 .f32) (main_arg2 : FVec F S4 .f32) (main_arg3 : FVec F S4x4 .f32) (main_arg4 : FVec F S4 .f32) (main_arg5 : FVec F S4x2 .f32) (main_arg6 : FVec F S2 .f32) (main_arg7 : FVec F S2x16 .f32) (main_arg8 : FVec F S16 .f32) (main_arg9 : IVec S2x6400000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_arg6 main_arg7 main_arg8 main_v13 main_v16
-- ==== Kernel.lean ====
abbrev S200000x128 : Shape := ⟨2, ![200000, 128]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x16 : Shape := ⟨2, ![2, 16]⟩
abbrev S16 : Shape := ⟨1, ![16]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x4 : Shape := ⟨2, ![200000, 4]⟩
abbrev S4000x128 : Shape := ⟨2, ![4000, 128]⟩
abbrev S4000x4 : Shape := ⟨2, ![4000, 4]⟩
abbrev S6600000x4 : Shape := ⟨2, ![6600000, 4]⟩
abbrev S1x4 : Shape := ⟨2, ![1, 4]⟩
abbrev S200000x2 : Shape := ⟨2, ![200000, 2]⟩
abbrev S4000x2 : Shape := ⟨2, ![4000, 2]⟩
abbrev S6600000x2 : Shape := ⟨2, ![6600000, 2]⟩
abbrev S1x2 : Shape := ⟨2, ![1, 2]⟩
abbrev S200000x16 : Shape := ⟨2, ![200000, 16]⟩
abbrev S4000x16 : Shape := ⟨2, ![4000, 16]⟩
abbrev S1x16 : Shape := ⟨2, ![1, 16]⟩

abbrev nBuf : Space → Nat
  | .hbm => 116
  | .vmem => 20
  | .smem => 0
  | _ => 0

abbrev bufTy : (tb : Table) → Fin (tcTables nBuf tb) → BufTy
  | .hbm, ⟨0, _⟩ => ⟨S200000x128, .f32⟩
  | .hbm, ⟨1, _⟩ => ⟨S128x4, .f32⟩
  | .hbm, ⟨2, _⟩ => ⟨S4, .f32⟩
  | .hbm, ⟨3, _⟩ => ⟨S4x4, .f32⟩
  | .hbm, ⟨4, _⟩ => ⟨S4, .f32⟩
  | .hbm, ⟨5, _⟩ => ⟨S4x2, .f32⟩
  | .hbm, ⟨6, _⟩ => ⟨S2, .f32⟩
  | .hbm, ⟨7, _⟩ => ⟨S2x16, .f32⟩
  | .hbm, ⟨8, _⟩ => ⟨S16, .f32⟩
  | .hbm, ⟨9, _⟩ => ⟨S2x6400000, .i32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S6600000, .i32⟩
  | .hbm, ⟨32, _⟩ => ⟨S6600000, .i1⟩
  | .hbm, ⟨33, _⟩ => ⟨S_, .i32⟩
  | .hbm, ⟨34, _⟩ => ⟨S6600000, .i32⟩
  | .hbm, ⟨35, _⟩ => ⟨S6600000, .i32⟩
  | .hbm, ⟨36, _⟩ => ⟨S6600000, .i32⟩
  | .hbm, ⟨37, _⟩ => ⟨S6600000x1, .i32⟩
  | .hbm, ⟨38, _⟩ => ⟨S6600000, .f32⟩
  | .hbm, ⟨39, _⟩ => ⟨S_, .i32⟩
  | .hbm, ⟨40, _⟩ => ⟨S6600000, .i32⟩
  | .hbm, ⟨41, _⟩ => ⟨S6600000, .i1⟩
  | .hbm, ⟨42, _⟩ => ⟨S_, .i32⟩
  | .hbm, ⟨43, _⟩ => ⟨S6600000, .i32⟩
  | .hbm, ⟨44, _⟩ => ⟨S6600000, .i32⟩
  | .hbm, ⟨45, _⟩ => ⟨S6600000, .i32⟩
  | .hbm, ⟨46, _⟩ => ⟨S6600000x1, .i32⟩
  | .hbm, ⟨47, _⟩ => ⟨S6600000, .f32⟩
  | .hbm, ⟨48, _⟩ => ⟨S6600000, .f32⟩
  | .hbm, ⟨49, _⟩ => ⟨S200000x4, .f32⟩
  | .hbm, ⟨50, _⟩ => ⟨S_, .i32⟩
  | .hbm, ⟨51, _⟩ => ⟨S6600000, .i32⟩
  | .hbm, ⟨52, _⟩ => ⟨S6600000, .i1⟩
  | .hbm, ⟨53, _⟩ => ⟨S_, .i32⟩
  | .hbm, ⟨54, _⟩ => ⟨S6600000, .i32⟩
  | .hbm, ⟨55, _⟩ => ⟨S6600000, .i32⟩
  | .hbm, ⟨56, _⟩ => ⟨S6600000, .i32⟩
  | .hbm, ⟨57, _⟩ => ⟨S6600000x1, .i32⟩
  | .hbm, ⟨58, _⟩ => ⟨S6600000x4, .f32⟩
  | .hbm, ⟨59, _⟩ => ⟨S6600000x1, .f32⟩
  | .hbm, ⟨60, _⟩ => ⟨S6600000x4, .f32⟩
  | .hbm, ⟨61, _⟩ => ⟨S6600000x4, .f32⟩
  | .hbm, ⟨62, _⟩ => ⟨S_, .f32⟩
  | .hbm, ⟨63, _⟩ => ⟨S200000x4, .f32⟩
  | .hbm, ⟨64, _⟩ => ⟨S6600000x1, .i32⟩
  | .hbm, ⟨65, _⟩ => ⟨S200000x4, .f32⟩
  | .hbm, ⟨66, _⟩ => ⟨S1x4, .f32⟩
  | .hbm, ⟨67, _⟩ => ⟨S200000x4, .f32⟩
  | .hbm, ⟨68, _⟩ => ⟨S200000x4, .f32⟩
  | .hbm, ⟨69, _⟩ => ⟨S200000x4, .f32⟩
  | .hbm, ⟨70, _⟩ => ⟨S200000x4, .f32⟩
  | .hbm, ⟨71, _⟩ => ⟨S_, .i32⟩
  | .hbm, ⟨72, _⟩ => ⟨S6600000, .i32⟩
  | .hbm, ⟨73, _⟩ => ⟨S6600000, .i1⟩
  | .hbm, ⟨74, _⟩ => ⟨S_, .i32⟩
  | .hbm, ⟨75, _⟩ => ⟨S6600000, .i32⟩
  | .hbm, ⟨76, _⟩ => ⟨S6600000, .i32⟩
  | .hbm, ⟨77, _⟩ => ⟨S6600000, .i32⟩
  | .hbm, ⟨78, _⟩ => ⟨S6600000x1, .i32⟩
  | .hbm, ⟨79, _⟩ => ⟨S6600000x4, .f32⟩
  | .hbm, ⟨80, _⟩ => ⟨S6600000x1, .f32⟩
  | .hbm, ⟨81, _⟩ => ⟨S6600000x4, .f32⟩
  | .hbm, ⟨82, _⟩ => ⟨S6600000x4, .f32⟩
  | .hbm, ⟨83, _⟩ => ⟨S_, .f32⟩
  | .hbm, ⟨84, _⟩ => ⟨S200000x4, .f32⟩
  | .hbm, ⟨85, _⟩ => ⟨S6600000x1, .i32⟩
  | .hbm, ⟨86, _⟩ => ⟨S200000x4, .f32⟩
  | .hbm, ⟨87, _⟩ => ⟨S1x4, .f32⟩
  | .hbm, ⟨88, _⟩ => ⟨S200000x4, .f32⟩
  | .hbm, ⟨89, _⟩ => ⟨S200000x4, .f32⟩
  | .hbm, ⟨90, _⟩ => ⟨S200000x4, .f32⟩
  | .hbm, ⟨91, _⟩ => ⟨S200000x2, .f32⟩
  | .hbm, ⟨92, _⟩ => ⟨S_, .i32⟩
  | .hbm, ⟨93, _⟩ => ⟨S6600000, .i32⟩
  | .hbm, ⟨94, _⟩ => ⟨S6600000, .i1⟩
  | .hbm, ⟨95, _⟩ => ⟨S_, .i32⟩
  | .hbm, ⟨96, _⟩ => ⟨S6600000, .i32⟩
  | .hbm, ⟨97, _⟩ => ⟨S6600000, .i32⟩
  | .hbm, ⟨98, _⟩ => ⟨S6600000, .i32⟩
  | .hbm, ⟨99, _⟩ => ⟨S6600000x1, .i32⟩
  | .hbm, ⟨100, _⟩ => ⟨S6600000x2, .f32⟩
  | .hbm, ⟨101, _⟩ => ⟨S6600000x1, .f32⟩
  | .hbm, ⟨102, _⟩ => ⟨S6600000x2, .f32⟩
  | .hbm, ⟨103, _⟩ => ⟨S6600000x2, .f32⟩
  | .hbm, ⟨104, _⟩ => ⟨S_, .f32⟩
  | .hbm, ⟨105, _⟩ => ⟨S200000x2, .f32⟩
  | .hbm, ⟨106, _⟩ => ⟨S6600000x1, .i32⟩
  | .hbm, ⟨107, _⟩ => ⟨S200000x2, .f32⟩
  | .hbm, ⟨108, _⟩ => ⟨S1x2, .f32⟩
  | .hbm, ⟨109, _⟩ => ⟨S200000x2, .f32⟩
  | .hbm, ⟨110, _⟩ => ⟨S200000x2, .f32⟩
  | .hbm, ⟨111, _⟩ => ⟨S200000x2, .f32⟩
  | .hbm, ⟨112, _⟩ => ⟨S200000x16, .f32⟩
  | .hbm, ⟨113, _⟩ => ⟨S1x16, .f32⟩
  | .hbm, ⟨114, _⟩ => ⟨S200000x16, .f32⟩
  | .hbm, ⟨115, _⟩ => ⟨S200000x16, .f32⟩
  | .local _ .vmem, ⟨0, _⟩ => ⟨S4000x128, .f32⟩
  | .local _ .vmem, ⟨1, _⟩ => ⟨S4000x128, .f32⟩
  | .local _ .vmem, ⟨2, _⟩ => ⟨S128x4, .f32⟩
  | .local _ .vmem, ⟨3, _⟩ => ⟨S4000x4, .f32⟩
  | .local _ .vmem, ⟨4, _⟩ => ⟨S4000x4, .f32⟩
  | .local _ .vmem, ⟨5, _⟩ => ⟨S4000x4, .f32⟩
  | .local _ .vmem, ⟨6, _⟩ => ⟨S4000x4, .f32⟩
  | .local _ .vmem, ⟨7, _⟩ => ⟨S4x4, .f32⟩
  | .local _ .vmem, ⟨8, _⟩ => ⟨S4000x4, .f32⟩
  | .local _ .vmem, ⟨9, _⟩ => ⟨S4000x4, .f32⟩
  | .local _ .vmem, ⟨10, _⟩ => ⟨S4000x4, .f32⟩
  | .local _ .vmem, ⟨11, _⟩ => ⟨S4000x4, .f32⟩
  | .local _ .vmem, ⟨12, _⟩ => ⟨S4x2, .f32⟩
  | .local _ .vmem, ⟨13, _⟩ => ⟨S4000x2, .f32⟩
  | .local _ .vmem, ⟨14, _⟩ => ⟨S4000x2, .f32⟩
  | .local _ .vmem, ⟨15, _⟩ => ⟨S4000x2, .f32⟩
  | .local _ .vmem, ⟨16, _⟩ => ⟨S4000x2, .f32⟩
  | .local _ .vmem, ⟨17, _⟩ => ⟨S2x16, .f32⟩
  | .local _ .vmem, ⟨18, _⟩ => ⟨S4000x16, .f32⟩
  | .local _ .vmem, ⟨19, _⟩ => ⟨S4000x16, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S4000x4_S4000x4_0_0 : ∀ a, (![0, 0] : Fin 2 → Nat) a + S4000x4.size a ≤ S4000x4.size a
  h_S4000x4 : 0 < S4000x4.numel
  bcast_S6600000x1_S6600000x4_0_1 : S6600000x1.BroadcastsInDim S6600000x4 (![0, 1] : Fin 2 → Fin S6600000x4.rank)
  bcast_S_S200000x4 : S_.BroadcastsInDim S200000x4 (![] : Fin 0 → Fin S200000x4.rank)
  bcast_S4_S1x4_1 : S4.BroadcastsInDim S1x4 (![1] : Fin 1 → Fin S1x4.rank)
  bcast_S1x4_S200000x4_0_1 : S1x4.BroadcastsInDim S200000x4 (![0, 1] : Fin 2 → Fin S200000x4.rank)
  shapeCasts_S4000x4_S4000x4 : S4000x4.ShapeCasts S4000x4
  inb_S4x4_S4x4_0_0 : ∀ a, (![0, 0] : Fin 2 → Nat) a + S4x4.size a ≤ S4x4.size a
  h_S4x4 : 0 < S4x4.numel
  inb_S4x2_S4x2_0_0 : ∀ a, (![0, 0] : Fin 2 → Nat) a + S4x2.size a ≤ S4x2.size a
  h_S4x2 : 0 < S4x2.numel
  inb_S4000x2_S4000x2_0_0 : ∀ a, (![0, 0] : Fin 2 → Nat) a + S4000x2.size a ≤ S4000x2.size a
  h_S4000x2 : 0 < S4000x2.numel
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  shapeCasts_S4000x2_S4000x2 : S4000x2.ShapeCasts S4000x2
  inb_S2x16_S2x16_0_0 : ∀ a, (![0, 0] : Fin 2 → Nat) a + S2x16.size a ≤ S2x16.size a
  h_S2x16 : 0 < S2x16.numel
  inb_S4000x16_S4000x16_0_0 : ∀ a, (![0, 0] : Fin 2 → Nat) a + S4000x16.size a ≤ S4000x16.size a
  h_S4000x16 : 0 < S4000x16.numel
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S4000x128_S128x4_S4000x4_1_0_0_1_n_n_wf : DotDims.WF S4000x128 S128x4 S4000x4 [1] [0] [0] [1] [] []
  gather_S200000x4_S6600000x1_S6600000x4_1_0_n_n_0_1_14_wf : GatherDims.WF S200000x4 S6600000x1 S6600000x4 [1] [0] [] [0] [] 1 ![1, 4]
  scatter_S200000x4_S6600000x1_S6600000x4_1_0_0_1_wf : ScatterDims.WF S200000x4 S6600000x1 S6600000x4 [1] [0] [0] 1
  dot_S4000x4_S4x4_S4000x4_1_0_0_1_n_n_wf : DotDims.WF S4000x4 S4x4 S4000x4 [1] [0] [0] [1] [] []
  dot_S4000x4_S4x2_S4000x2_1_0_0_1_n_n_wf : DotDims.WF S4000x4 S4x2 S4000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S4000x2_S2x16_S4000x16_1_0_0_1_n_n_wf : DotDims.WF S4000x2 S2x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S200000x4.size a
  hwx0_2 : ∀ i : grid0.Coords, EltTy.bits .f32 = 32 ∨ (Rect.block (s := S200000x4) S4000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S200000x4.size a
  hwx1_0 : ∀ i : grid1.Coords, EltTy.bits .f32 = 32 ∨ (Rect.block (s := S200000x4) S4000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4.size a ≤ S4x4.size a
  hwx1_1 : ∀ i : grid1.Coords, EltTy.bits .f32 = 32 ∨ (Rect.block (s := S4x4) S4x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S200000x4.size a
  hwx1_2 : ∀ i : grid1.Coords, EltTy.bits .f32 = 32 ∨ (Rect.block (s := S200000x4) S4000x4.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x4.size a ≤ S200000x4.size a
  hwx2_0 : ∀ i : grid2.Coords, EltTy.bits .f32 = 32 ∨ (Rect.block (s := S200000x4) S4000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2.size a ≤ S4x2.size a
  hwx2_1 : ∀ i : grid2.Coords, EltTy.bits .f32 = 32 ∨ (Rect.block (s := S4x2) S4x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x2.size a ≤ S200000x2.size a
  hwx2_2 : ∀ i : grid2.Coords, EltTy.bits .f32 = 32 ∨ (Rect.block (s := S200000x2) S4000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x2.size a ≤ S200000x2.size a
  hwx3_0 : ∀ i : grid3.Coords, EltTy.bits .f32 = 32 ∨ (Rect.block (s := S200000x2) S4000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x16.size a ≤ S2x16.size a
  hwx3_1 : ∀ i : grid3.Coords, EltTy.bits .f32 = 32 ∨ (Rect.block (s := S2x16) S2x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S200000x16.size a
  hwx3_2 : ∀ i : grid3.Coords, EltTy.bits .f32 = 32 ∨ (Rect.block (s := S200000x16) S4000x16.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def gather_S200000x4_S6600000x1_S6600000x4_1_0_n_n_0_1_14 : GatherDims S200000x4 S6600000x1 S6600000x4 where
  offsetDims := [1]
  collapsedSliceDims := [0]
  operandBatchingDims := []
  startIndicesBatchingDims := []
  startIndexMap := [0]
  indexVectorDim := 1
  sliceSizes := ![1, 4]
  wf := gather_S200000x4_S6600000x1_S6600000x4_1_0_n_n_0_1_14_wf
def scatter_S200000x4_S6600000x1_S6600000x4_1_0_0_1 : ScatterDims S200000x4 S6600000x1 S6600000x4 where
  updateWindowDims := [1]
  insertedWindowDims := [0]
  scatterDimsToOperandDims := [0]
  indexVectorDim := 1
  wf := scatter_S200000x4_S6600000x1_S6600000x4_1_0_0_1_wf
def dot_S4000x4_S4x4_S4000x4_1_0_0_1_n_n : DotDims S4000x4 S4x4 S4000x4 where
  lhsContracting := [1]
  rhsContracting := [0]
  lhsNonContracting := [0]
  rhsNonContracting := [1]
  lhsBatch := []
  rhsBatch := []
  wf := dot_S4000x4_S4x4_S4000x4_1_0_0_1_n_n_wf
def dot_S4000x4_S4x2_S4000x2_1_0_0_1_n_n : DotDims S4000x4 S4x2 S4000x2 where
  lhsContracting := [1]
  rhsContracting := [0]
  lhsNonContracting := [0]
  rhsNonContracting := [1]
  lhsBatch := []
  rhsBatch := []
  wf := dot_S4000x4_S4x2_S4000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S4000x2_S2x16_S4000x16_1_0_0_1_n_n : DotDims S4000x2 S2x16 S4000x16 where
  lhsContracting := [1]
  rhsContracting := [0]
  lhsNonContracting := [0]
  rhsNonContracting := [1]
  lhsBatch := []
  rhsBatch := []
  wf := dot_S4000x2_S2x16_S4000x16_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S4000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S4x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S4000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S4000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S2x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S4000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x128 : Shape := ⟨2, ![200000, 128]⟩
abbrev S128x4 : Shape := ⟨2, ![128, 4]⟩
abbrev S4 : Shape := ⟨1, ![4]⟩
abbrev S4x4 : Shape := ⟨2, ![4, 4]⟩
abbrev S4x2 : Shape := ⟨2, ![4, 2]⟩
abbrev S2 : Shape := ⟨1, ![2]⟩
abbrev S2x16 : Shape := ⟨2, ![2, 16]⟩
abbrev S16 : Shape := ⟨1, ![16]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x4 : Shape := ⟨2, ![200000, 4]⟩
abbrev S6600000x4 : Shape := ⟨2, ![6600000, 4]⟩
abbrev S1x4 : Shape := ⟨2, ![1, 4]⟩
abbrev S200000x2 : Shape := ⟨2, ![200000, 2]⟩
abbrev S6600000x2 : Shape := ⟨2, ![6600000, 2]⟩
abbrev S1x2 : Shape := ⟨2, ![1, 2]⟩
abbrev S200000x16 : Shape := ⟨2, ![200000, 16]⟩
abbrev S1x16 : Shape := ⟨2, ![1, 16]⟩

abbrev nBuf : Space → Nat
  | .hbm => 116
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S128x4, .f32⟩
  | .hbm, ⟨2, _⟩ => ⟨S4, .f32⟩
  | .hbm, ⟨3, _⟩ => ⟨S4x4, .f32⟩
  | .hbm, ⟨4, _⟩ => ⟨S4, .f32⟩
  | .hbm, ⟨5, _⟩ => ⟨S4x2, .f32⟩
  | .hbm, ⟨6, _⟩ => ⟨S2, .f32⟩
  | .hbm, ⟨7, _⟩ => ⟨S2x16, .f32⟩
  | .hbm, ⟨8, _⟩ => ⟨S16, .f32⟩
  | .hbm, ⟨9, _⟩ => ⟨S2x6400000, .i32⟩
  | .hbm, ⟨10, _⟩ => ⟨S200000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S1x6400000, .i32⟩
  | .hbm, ⟨15, _⟩ => ⟨S6400000, .i32⟩
  | .hbm, ⟨16, _⟩ => ⟨S6600000, .i32⟩
  | .hbm, ⟨17, _⟩ => ⟨S_, .f32⟩
  | .hbm, ⟨18, _⟩ => ⟨S6600000, .f32⟩
  | .hbm, ⟨19, _⟩ => ⟨S_, .f32⟩
  | .hbm, ⟨20, _⟩ => ⟨S200000, .f32⟩
  | .hbm, ⟨21, _⟩ => ⟨S6600000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S6600000, .i32⟩
  | .hbm, ⟨32, _⟩ => ⟨S6600000, .i1⟩
  | .hbm, ⟨33, _⟩ => ⟨S_, .i32⟩
  | .hbm, ⟨34, _⟩ => ⟨S6600000, .i32⟩
  | .hbm, ⟨35, _⟩ => ⟨S6600000, .i32⟩
  | .hbm, ⟨36, _⟩ => ⟨S6600000, .i32⟩
  | .hbm, ⟨37, _⟩ => ⟨S6600000x1, .i32⟩
  | .hbm, ⟨38, _⟩ => ⟨S6600000, .f32⟩
  | .hbm, ⟨39, _⟩ => ⟨S_, .i32⟩
  | .hbm, ⟨40, _⟩ => ⟨S6600000, .i32⟩
  | .hbm, ⟨41, _⟩ => ⟨S6600000, .i1⟩
  | .hbm, ⟨42, _⟩ => ⟨S_, .i32⟩
  | .hbm, ⟨43, _⟩ => ⟨S6600000, .i32⟩
  | .hbm, ⟨44, _⟩ => ⟨S6600000, .i32⟩
  | .hbm, ⟨45, _⟩ => ⟨S6600000, .i32⟩
  | .hbm, ⟨46, _⟩ => ⟨S6600000x1, .i32⟩
  | .hbm, ⟨47, _⟩ => ⟨S6600000, .f32⟩
  | .hbm, ⟨48, _⟩ => ⟨S6600000, .f32⟩
  | .hbm, ⟨49, _⟩ => ⟨S200000x4, .f32⟩
  | .hbm, ⟨50, _⟩ => ⟨S_, .i32⟩
  | .hbm, ⟨51, _⟩ => ⟨S6600000, .i32⟩
  | .hbm, ⟨52, _⟩ => ⟨S6600000, .i1⟩
  | .hbm, ⟨53, _⟩ => ⟨S_, .i32⟩
  | .hbm, ⟨54, _⟩ => ⟨S6600000, .i32⟩
  | .hbm, ⟨55, _⟩ => ⟨S6600000, .i32⟩
  | .hbm, ⟨56, _⟩ => ⟨S6600000, .i32⟩
  | .hbm, ⟨57, _⟩ => ⟨S6600000x1, .i32⟩
  | .hbm, ⟨58, _⟩ => ⟨S6600000x4, .f32⟩
  | .hbm, ⟨59, _⟩ => ⟨S6600000x1, .f32⟩
  | .hbm, ⟨60, _⟩ => ⟨S6600000x4, .f32⟩
  | .hbm, ⟨61, _⟩ => ⟨S6600000x4, .f32⟩
  | .hbm, ⟨62, _⟩ => ⟨S_, .f32⟩
  | .hbm, ⟨63, _⟩ => ⟨S200000x4, .f32⟩
  | .hbm, ⟨64, _⟩ => ⟨S6600000x1, .i32⟩
  | .hbm, ⟨65, _⟩ => ⟨S200000x4, .f32⟩
  | .hbm, ⟨66, _⟩ => ⟨S1x4, .f32⟩
  | .hbm, ⟨67, _⟩ => ⟨S200000x4, .f32⟩
  | .hbm, ⟨68, _⟩ => ⟨S200000x4, .f32⟩
  | .hbm, ⟨69, _⟩ => ⟨S200000x4, .f32⟩
  | .hbm, ⟨70, _⟩ => ⟨S200000x4, .f32⟩
  | .hbm, ⟨71, _⟩ => ⟨S_, .i32⟩
  | .hbm, ⟨72, _⟩ => ⟨S6600000, .i32⟩
  | .hbm, ⟨73, _⟩ => ⟨S6600000, .i1⟩
  | .hbm, ⟨74, _⟩ => ⟨S_, .i32⟩
  | .hbm, ⟨75, _⟩ => ⟨S6600000, .i32⟩
  | .hbm, ⟨76, _⟩ => ⟨S6600000, .i32⟩
  | .hbm, ⟨77, _⟩ => ⟨S6600000, .i32⟩
  | .hbm, ⟨78, _⟩ => ⟨S6600000x1, .i32⟩
  | .hbm, ⟨79, _⟩ => ⟨S6600000x4, .f32⟩
  | .hbm, ⟨80, _⟩ => ⟨S6600000x1, .f32⟩
  | .hbm, ⟨81, _⟩ => ⟨S6600000x4, .f32⟩
  | .hbm, ⟨82, _⟩ => ⟨S6600000x4, .f32⟩
  | .hbm, ⟨83, _⟩ => ⟨S_, .f32⟩
  | .hbm, ⟨84, _⟩ => ⟨S200000x4, .f32⟩
  | .hbm, ⟨85, _⟩ => ⟨S6600000x1, .i32⟩
  | .hbm, ⟨86, _⟩ => ⟨S200000x4, .f32⟩
  | .hbm, ⟨87, _⟩ => ⟨S1x4, .f32⟩
  | .hbm, ⟨88, _⟩ => ⟨S200000x4, .f32⟩
  | .hbm, ⟨89, _⟩ => ⟨S200000x4, .f32⟩
  | .hbm, ⟨90, _⟩ => ⟨S200000x4, .f32⟩
  | .hbm, ⟨91, _⟩ => ⟨S200000x2, .f32⟩
  | .hbm, ⟨92, _⟩ => ⟨S_, .i32⟩
  | .hbm, ⟨93, _⟩ => ⟨S6600000, .i32⟩
  | .hbm, ⟨94, _⟩ => ⟨S6600000, .i1⟩
  | .hbm, ⟨95, _⟩ => ⟨S_, .i32⟩
  | .hbm, ⟨96, _⟩ => ⟨S6600000, .i32⟩
  | .hbm, ⟨97, _⟩ => ⟨S6600000, .i32⟩
  | .hbm, ⟨98, _⟩ => ⟨S6600000, .i32⟩
  | .hbm, ⟨99, _⟩ => ⟨S6600000x1, .i32⟩
  | .hbm, ⟨100, _⟩ => ⟨S6600000x2, .f32⟩
  | .hbm, ⟨101, _⟩ => ⟨S6600000x1, .f32⟩
  | .hbm, ⟨102, _⟩ => ⟨S6600000x2, .f32⟩
  | .hbm, ⟨103, _⟩ => ⟨S6600000x2, .f32⟩
  | .hbm, ⟨104, _⟩ => ⟨S_, .f32⟩
  | .hbm, ⟨105, _⟩ => ⟨S200000x2, .f32⟩
  | .hbm, ⟨106, _⟩ => ⟨S6600000x1, .i32⟩
  | .hbm, ⟨107, _⟩ => ⟨S200000x2, .f32⟩
  | .hbm, ⟨108, _⟩ => ⟨S1x2, .f32⟩
  | .hbm, ⟨109, _⟩ => ⟨S200000x2, .f32⟩
  | .hbm, ⟨110, _⟩ => ⟨S200000x2, .f32⟩
  | .hbm, ⟨111, _⟩ => ⟨S200000x2, .f32⟩
  | .hbm, ⟨112, _⟩ => ⟨S200000x16, .f32⟩
  | .hbm, ⟨113, _⟩ => ⟨S1x16, .f32⟩
  | .hbm, ⟨114, _⟩ => ⟨S200000x16, .f32⟩
  | .hbm, ⟨115, _⟩ => ⟨S200000x16, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x4_0_1 : S6600000x1.BroadcastsInDim S6600000x4 (![0, 1] : Fin 2 → Fin S6600000x4.rank)
  bcast_S_S200000x4 : S_.BroadcastsInDim S200000x4 (![] : Fin 0 → Fin S200000x4.rank)
  bcast_S4_S1x4_1 : S4.BroadcastsInDim S1x4 (![1] : Fin 1 → Fin S1x4.rank)
  bcast_S1x4_S200000x4_0_1 : S1x4.BroadcastsInDim S200000x4 (![0, 1] : Fin 2 → Fin S200000x4.rank)
  bcast_S6600000x1_S6600000x2_0_1 : S6600000x1.BroadcastsInDim S6600000x2 (![0, 1] : Fin 2 → Fin S6600000x2.rank)
  bcast_S_S200000x2 : S_.BroadcastsInDim S200000x2 (![] : Fin 0 → Fin S200000x2.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x128_S128x4_S200000x4_1_0_0_1_n_n_wf : DotDims.WF S200000x128 S128x4 S200000x4 [1] [0] [0] [1] [] []
  gather_S200000x4_S6600000x1_S6600000x4_1_0_n_n_0_1_14_wf : GatherDims.WF S200000x4 S6600000x1 S6600000x4 [1] [0] [] [0] [] 1 ![1, 4]
  scatter_S200000x4_S6600000x1_S6600000x4_1_0_0_1_wf : ScatterDims.WF S200000x4 S6600000x1 S6600000x4 [1] [0] [0] 1
  dot_S200000x4_S4x4_S200000x4_1_0_0_1_n_n_wf : DotDims.WF S200000x4 S4x4 S200000x4 [1] [0] [0] [1] [] []
  dot_S200000x4_S4x2_S200000x2_1_0_0_1_n_n_wf : DotDims.WF S200000x4 S4x2 S200000x2 [1] [0] [0] [1] [] []
  gather_S200000x2_S6600000x1_S6600000x2_1_0_n_n_0_1_12_wf : GatherDims.WF S200000x2 S6600000x1 S6600000x2 [1] [0] [] [0] [] 1 ![1, 2]
  scatter_S200000x2_S6600000x1_S6600000x2_1_0_0_1_wf : ScatterDims.WF S200000x2 S6600000x1 S6600000x2 [1] [0] [0] 1
  dot_S200000x2_S2x16_S200000x16_1_0_0_1_n_n_wf : DotDims.WF S200000x2 S2x16 S200000x16 [1] [0] [0] [1] [] []

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x128_S128x4_S200000x4_1_0_0_1_n_n : DotDims S200000x128 S128x4 S200000x4 where
  lhsContracting := [1]
  rhsContracting := [0]
  lhsNonContracting := [0]
  rhsNonContracting := [1]
  lhsBatch := []
  rhsBatch := []
  wf := dot_S200000x128_S128x4_S200000x4_1_0_0_1_n_n_wf
def gather_S200000x4_S6600000x1_S6600000x4_1_0_n_n_0_1_14 : GatherDims S200000x4 S6600000x1 S6600000x4 where
  offsetDims := [1]
  collapsedSliceDims := [0]
  operandBatchingDims := []
  startIndicesBatchingDims := []
  startIndexMap := [0]
  indexVectorDim := 1
  sliceSizes := ![1, 4]
  wf := gather_S200000x4_S6600000x1_S6600000x4_1_0_n_n_0_1_14_wf
def scatter_S200000x4_S6600000x1_S6600000x4_1_0_0_1 : ScatterDims S200000x4 S6600000x1 S6600000x4 where
  updateWindowDims := [1]
  insertedWindowDims := [0]
  scatterDimsToOperandDims := [0]
  indexVectorDim := 1
  wf := scatter_S200000x4_S6600000x1_S6600000x4_1_0_0_1_wf
def dot_S200000x4_S4x4_S200000x4_1_0_0_1_n_n : DotDims S200000x4 S4x4 S200000x4 where
  lhsContracting := [1]
  rhsContracting := [0]
  lhsNonContracting := [0]
  rhsNonContracting := [1]
  lhsBatch := []
  rhsBatch := []
  wf := dot_S200000x4_S4x4_S200000x4_1_0_0_1_n_n_wf
def dot_S200000x4_S4x2_S200000x2_1_0_0_1_n_n : DotDims S200000x4 S4x2 S200000x2 where
  lhsContracting := [1]
  rhsContracting := [0]
  lhsNonContracting := [0]
  rhsNonContracting := [1]
  lhsBatch := []
  rhsBatch := []
  wf := dot_S200000x4_S4x2_S200000x2_1_0_0_1_n_n_wf
def gather_S200000x2_S6600000x1_S6600000x2_1_0_n_n_0_1_12 : GatherDims S200000x2 S6600000x1 S6600000x2 where
  offsetDims := [1]
  collapsedSliceDims := [0]
  operandBatchingDims := []
  startIndicesBatchingDims := []
  startIndexMap := [0]
  indexVectorDim := 1
  sliceSizes := ![1, 2]
  wf := gather_S200000x2_S6600000x1_S6600000x2_1_0_n_n_0_1_12_wf
def scatter_S200000x2_S6600000x1_S6600000x2_1_0_0_1 : ScatterDims S200000x2 S6600000x1 S6600000x2 where
  updateWindowDims := [1]
  insertedWindowDims := [0]
  scatterDimsToOperandDims := [0]
  indexVectorDim := 1
  wf := scatter_S200000x2_S6600000x1_S6600000x2_1_0_0_1_wf
def dot_S200000x2_S2x16_S200000x16_1_0_0_1_n_n : DotDims S200000x2 S2x16 S200000x16 where
  lhsContracting := [1]
  rhsContracting := [0]
  lhsNonContracting := [0]
  rhsNonContracting := [1]
  lhsBatch := []
  rhsBatch := []
  wf := dot_S200000x2_S2x16_S200000x16_1_0_0_1_n_n_wf

class Facts : Prop extends Facts₀ where

variable [Facts]
-- ==== Proof.EdgeWeights.lean ====
/-
  The host operations before the first launch, which both programs share: from the 2 × 6400000 edge list,

    src = (row 0 of the edge list, then 0 … 199999),   dst = (row 1, then 0 … 199999)          (the self loops appended),
    deg = the number of entries of dst at each node,   dinv = deg^(-1/2) where deg > 0, else 0,
    norm[e] = dinv[src[e]] · dinv[dst[e]]                                                       (one weight per edge).

  They come in three stretches (the degree and its inverse square root; the choice "where deg > 0"; the two gathers
  and their product).  Each stretch is read here over an arbitrary memory it starts from, given what the stretch
  before left in the buffers it reads, and the three are then chained from the launch memory.  Nothing here depends on
  which arithmetic the floats carry.
-/
import proofs.«125456_j10368051052900_1_alg».proof.Proof.Gen.KernelIdeal.Frame
import proofs.«125456_j10368051052900_1_alg».proof.Proof.RefRead

set_option maxRecDepth 16384

noncomputable section

namespace Cert.KernelIdeal.Edges

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v12 val_main_v13 val_main_v14 val_main_v15 val_main_v30)

variable {F : FTy → Type} [FloatOps F]

/-- A stretch of host operations leaves a buffer none of them writes as it was. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## Each stretch, from any memory -/

section Stretches

variable (W : Valuation τ sig (Elt F)) (x9 : (⟨S2x6400000, .i32⟩ : BufTy).Contents (Elt F))

/-- The source index vector. -/
theorem first_src (h9 : W (Proc.devRef .tc main_arg9) = x9) :
    StableHlo.after hostOps0 W (Proc.devRef .tc main_v3) = val_main_v3 x9 := by
  subst h9; after_results; rfl
/-- The destination index vector. -/
theorem first_dst (h9 : W (Proc.devRef .tc main_arg9) = x9) :
    StableHlo.after hostOps0 W (Proc.devRef .tc main_v6) = val_main_v6 x9 := by
  subst h9; after_results; rfl
/-- Where the degree is positive. -/
theorem first_pos (h9 : W (Proc.devRef .tc main_arg9) = x9) :
    StableHlo.after hostOps0 W (Proc.devRef .tc main_v12) = val_main_v12 x9 := by
  subst h9; after_results; rfl
/-- The degree's inverse square root. -/
theorem first_rsqrt (h9 : W (Proc.devRef .tc main_arg9) = x9) :
    StableHlo.after hostOps0 W (Proc.devRef .tc main_v13) = val_main_v13 x9 := by
  subst h9; after_results; rfl
/-- The zero vector. -/
theorem first_zero : StableHlo.after hostOps0 W (Proc.devRef .tc main_v14) = val_main_v14 (F := F) := by
  after_results; rfl

/-- The inverse square-root degree where the degree is positive, zero elsewhere. -/
theorem second_dinv (h12 : W (Proc.devRef .tc main_v12) = val_main_v12 x9) (h13 : W (Proc.devRef .tc main_v13) = val_main_v13 x9)
    (h14 : W (Proc.devRef .tc main_v14) = val_main_v14 (F := F)) :
    StableHlo.after hostOps0_1 W (Proc.devRef .tc main_v15) = val_main_v15 x9 := by
  after_results; rw [h12, h13, h14]; rfl

/-- The per-edge weight: the inverse square-root degree at the source times that at the destination. -/
theorem third_norm (h3 : W (Proc.devRef .tc main_v3) = val_main_v3 x9) (h6 : W (Proc.devRef .tc main_v6) = val_main_v6 x9)
    (h15 : W (Proc.devRef .tc main_v15) = val_main_v15 x9) :
    StableHlo.after hostOps0_2 W (Proc.devRef .tc main_v30) = val_main_v30 x9 := by
  after_results_simp; rw [h3, h6, h15]; rfl

end Stretches

/-! ## Chained from the launch memory -/

variable (m : (ℓ : Loc nD τ sig) → Buf (Elt F) ℓ) (ρ : Dev nD → PrngReg)

/-- The edge list as launched. -/
abbrev X9 (c : Dev nD) : (⟨S2x6400000, .i32⟩ : BufTy).Contents (Elt F) := m ((c : Thread nD τ).loc main_arg9)

theorem src2 (c : Dev nD) : W2 m ρ c (Proc.devRef .tc main_v3) = val_main_v3 (X9 m c) :=
  (by unwritten hostOps0_1 : W2 m ρ c _ = W1 m ρ c _).trans (first_src (W0 m ρ c) (X9 m c) rfl)
theorem dst2 (c : Dev nD) : W2 m ρ c (Proc.devRef .tc main_v6) = val_main_v6 (X9 m c) :=
  (by unwritten hostOps0_1 : W2 m ρ c _ = W1 m ρ c _).trans (first_dst (W0 m ρ c) (X9 m c) rfl)
theorem dinv2 (c : Dev nD) : W2 m ρ c (Proc.devRef .tc main_v15) = val_main_v15 (X9 m c) :=
  second_dinv (W1 m ρ c) (X9 m c) (first_pos (W0 m ρ c) (X9 m c) rfl) (first_rsqrt (W0 m ρ c) (X9 m c) rfl) (first_zero (W0 m ρ c))

/-- Before the first launch: the source index vector. -/
theorem src3 (c : Dev nD) : W3 m ρ c (Proc.devRef .tc main_v3) = val_main_v3 (X9 m c) :=
  (by unwritten hostOps0_2 : W3 m ρ c _ = W2 m ρ c _).trans (src2 m ρ c)
/-- Before the first launch: the destination index vector. -/
theorem dst3 (c : Dev nD) : W3 m ρ c (Proc.devRef .tc main_v6) = val_main_v6 (X9 m c) :=
  (by unwritten hostOps0_2 : W3 m ρ c _ = W2 m ρ c _).trans (dst2 m ρ c)
/-- Before the first launch: the per-edge weight. -/
theorem norm3 (c : Dev nD) : W3 m ρ c (Proc.devRef .tc main_v30) = val_main_v30 (X9 m c) :=
  third_norm (W2 m ρ c) (X9 m c) (src2 m ρ c) (dst2 m ρ c) (dinv2 m ρ c)

end Cert.KernelIdeal.Edges

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.Region0.lean ====
/-
  The first product of the kernel's program.  The launch walks the 200000 rows of X in 50 blocks of 4000 rows; at
  block t the body multiplies rows t·4000 … t·4000+3999 of X by the whole 128×4 weight, into a zero accumulator, and
  writes the 4000×4 result back as block t of the output.  Over the extended reals the narrowing of both operands to
  half width is the identity, so entry (p, q) of the block is Σ_k X[t·4000+p, k] · W[k, q]: entry (t·4000+p, q) of
  the full product X · W.  The 50 blocks tile the 200000 rows exactly (row r lies in block r / 4000), so after the
  launch the output array is the host's product of the two arrays the launch found.
-/
import proofs.«125456_j10368051052900_1_alg».proof.Proof.Gen.KernelIdeal.Frame
import proofs.«125456_j10368051052900_1_alg».proof.Proof.LibPlainDot
import Idealize.ShloMosaic.Lib.Pipeline.Value

set_option maxRecDepth 16384

noncomputable section

namespace Cert.KernelIdeal.Region0

open Idealize.ShloMosaic Idealize.ShloMosaic.TcCoe Idealize.SL.Sem
open Idealize.ShloMosaic.ValueIdx
open Cert.KernelIdeal Cert.KernelIdeal.Gen

variable (V : (c : Dev nD) → (b : Ref sig .tc) → Buf (Elt Ideal) ((c : Thread nD τ).loc b))

/-- The product of the two whole arrays, as the host computes it. -/
abbrev prod (X : FVec Ideal S200000x128 .f32) (Wt : FVec Ideal S128x4 .f32) : FVec Ideal S200000x4 .f32 :=
  Host.dotGeneral (F := Ideal) (DotDims.plain 200000 128 4) none X Wt

theorem hz : (![0, 0] : Fin 2 → Nat) = fun _ => 0 := funext fun a => by fin_cases a <;> rfl

/-- The body's value at an entry of its block: the row of the left block against the column of the weight. -/
theorem payload_apply (xb : Vec Ideal S4000x128 .f32) (wb : Vec Ideal S128x4 .f32) (p : Fin 4000) (q : Fin 4) :
    k0_pay1 (F := Ideal) xb wb (ix2 p q) = ∑ k : Fin 128, xb (ix2 p k) * wb (ix2 k q) :=
  plain_matmul_zero_apply (M := 4000) (K := 128) (N := 4) none xb wb (ix2 p q)

/-- The host's product at an entry: the row of the left array against the column of the weight. -/
theorem prod_apply (X : FVec Ideal S200000x128 .f32) (Wt : FVec Ideal S128x4 .f32) (r : Fin 200000) (q : Fin 4) :
    prod X Wt (ix2 r q) = ∑ k : Fin 128, X (ix2 r k) * Wt (ix2 k q) :=
  plain_dotGeneral_apply (M := 200000) (K := 128) (N := 4) none _ X Wt (ix2 r q)

/-- The printed index maps, decided over the 50 points: the left operand and the output move one block of rows per
    point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The blocks and the arrays of the launch, at their literal types. -/
abbrev xblk (c : Dev nD) (t : Fin cfg0.N) : Vec Ideal S4000x128 .f32 := iblk0 V c 0 t
abbrev wblk (c : Dev nD) (t : Fin cfg0.N) : Vec Ideal S128x4 .f32 := iblk0 V c 1 t
abbrev xarr (c : Dev nD) : FVec Ideal S200000x128 .f32 := V c main_arg0
abbrev warr (c : Dev nD) : FVec Ideal S128x4 .f32 := V c main_arg1

/-- Row p of the left block at point t is row t·4000 + p of the left array. -/
theorem xblk_apply (c : Dev nD) (t : Fin cfg0.N) (p : Fin 4000) (k : Fin 128) (hr : t.val * 4000 + p.val < 200000) :
    xblk V c t (ix2 p k) = xarr V c (ix2 ⟨t.val * 4000 + p.val, hr⟩ k) := by
  obtain ⟨e0, e1, e2, e3, e4, e5⟩ := idx_facts t
  show V c main_arg0 (((cfg0.win 0).blk t).view.emb (ix2 p k)) = V c main_arg0 (ix2 ⟨t.val * 4000 + p.val, hr⟩ k)
  refine congrArg (V c main_arg0) (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The weight's block at every point is the whole weight. -/
theorem wblk_apply (c : Dev nD) (t : Fin cfg0.N) (k : Fin 128) (q : Fin 4) :
    wblk V c t (ix2 k q) = warr V c (ix2 k q) := by
  obtain ⟨e0, e1, e2, e3, e4, e5⟩ := idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 128 + 1 * k.val = k.val; omega
  | ⟨1, _⟩ => show win0_1.index t (1 : Fin 2) * 4 + 1 * q.val = q.val; omega

/-- Entry (p, q) of the output block at point t sits at (t·4000 + p, q) of the output array. -/
theorem oblk_emb (t : Fin cfg0.N) (p : Fin 4000) (q : Fin 4) (hr : t.val * 4000 + p.val < 200000) :
    ((cfg0.win 2).blk t).view.emb (ix2 p q) = (ix2 ⟨t.val * 4000 + p.val, hr⟩ q : S200000x4.Idx) := by
  obtain ⟨e0, e1, e2, e3, e4, e5⟩ := idx_facts t
  refine funext fun a => Fin.ext ?_
  match a with
  | ⟨0, _⟩ => show win0_2.index t (0 : Fin 2) * 4000 + 1 * p.val = t.val * 4000 + p.val; omega
  | ⟨1, _⟩ => show win0_2.index t (1 : Fin 2) * 4 + 1 * q.val = q.val; omega

/-- What point t writes back is block t of the product of the arrays the launch found. -/
theorem flushed_eq (c : Dev nD) (t : Fin cfg0.N) :
    (dat0 V c).flushed 2 t = ((cfg0.win 2).blk t).view.read (Elt Ideal) (prod (xarr V c) (warr V c)) := by
  show (cfg0.win 2).cut (grid0.coords t) ((dat0 V c).after 2 t) = _
  rw [after0_2]
  unfold out0_2
  rw [View.canon_unit_zero hz]
  simp only [View.ld_unit_zero (S := S4000x128) hz, View.ld_unit_zero (S := S128x4) hz]
  funext j
  obtain ⟨p, q, rfl⟩ : ∃ (p : Fin 4000) (q : Fin 4), j = ix2 p q := ⟨j 0, j 1, eq_ix2 j⟩
  have ht : t.val < 50 := N_0 ▸ t.isLt
  have hr : t.val * 4000 + p.val < 200000 := by have := p.isLt; omega
  show k0_pay1 (F := Ideal) (xblk V c t) (wblk V c t) (ix2 p q)
    = prod (xarr V c) (warr V c) (((cfg0.win 2).blk t).view.emb (ix2 p q))
  rw [oblk_emb t p q hr, payload_apply, prod_apply]
  exact Finset.sum_congr rfl fun k _ => congrArg₂ (· * ·) (xblk_apply V c t p k hr) (wblk_apply V c t k q)

/-- An index of the output array is in point t's block iff each coordinate is in the block's range on its axis. -/
theorem mem_blk (t : Fin cfg0.N) (i : S200000x4.Idx) :
    i ∈ ((cfg0.win 2).blk t).view.set ↔ ∀ a : Fin 2, win0_2.index t a * S4000x4.size a ≤ (i a).val
      ∧ (i a).val < win0_2.index t a * S4000x4.size a + S4000x4.size a := by
  show i ∈ ((View.whole main_v31).slice (win0_2.rect t)).set ↔ _
  rw [View.set_slice_whole, Rect.mem_set_unit]
  exact Iff.rfl

/-- Row r of the output lies in the block of point r / 4000. -/
theorem cover (i : S200000x4.Idx) :
    ∃ t : Fin cfg0.N, (cfg0.win 2).flush t = true ∧ i ∈ ((cfg0.win 2).blk t).view.set := by
  have hi0 : (i 0).val < 200000 := (i 0).isLt
  have hi1 : (i 1).val < 4 := (i 1).isLt
  let t0 : Fin cfg0.N := ⟨(i 0).val / 4000, by rw [show cfg0.N = 50 from N_0]; omega⟩
  obtain ⟨e0, e1, e2, e3, e4, e5⟩ := idx_facts t0
  have e4' : win0_2.index t0 (0 : Fin 2) = (i 0).val / 4000 := e4
  refine ⟨t0, flush0_2 t0, ?_⟩
  rw [mem_blk]
  intro a
  match a with
  | ⟨0, _⟩ =>
    show win0_2.index t0 (0 : Fin 2) * 4000 ≤ (i 0).val ∧ (i 0).val < win0_2.index t0 (0 : Fin 2) * 4000 + 4000
    omega
  | ⟨1, _⟩ =>
    show win0_2.index t0 (1 : Fin 2) * 4 ≤ (i 1).val ∧ (i 1).val < win0_2.index t0 (1 : Fin 2) * 4 + 4
    omega

/-- After the launch the output array is the host's product of the two arrays the launch found. -/
theorem final (c : Dev nD) : (dat0 V c).arrAt 2 cfg0.N = prod (V c main_arg0) (V c main_arg1) :=
  (dat0 V c).arrAt_eq_of_cover 2 (prod (xarr V c) (warr V c)) (fun t _ => flushed_eq V c t) cover

end Cert.KernelIdeal.Region0

end
-- ==== Proof.Region1.lean ====
/-
  The second product of the kernel's program.  The launch walks the 200000 rows of h in 50 blocks of 4000
  rows; at block t the body multiplies rows t·4000 … t·4000+3999 of h by the whole weight, into a zero accumulator, and
  writes the result back as block t of the output.  Over the extended reals the narrowing of both operands to half
  width is the identity (and so is the reshaping of the left block to its own shape), so entry (p, q) of the block is
  Σ_k h[t·4000+p, k] · W[k, q]: entry (t·4000+p, q) of the full product h · W.  The 50 blocks tile the 200000 rows
  exactly (row r lies in block r / 4000), so after the launch the output array is the host's product of the two arrays
  the launch found.
-/
import proofs.«125456_j10368051052900_1_alg».proof.Proof.Gen.KernelIdeal.Frame
import proofs.«125456_j10368051052900_1_alg».proof.Proof.LibPlainDot
import Idealize.ShloMosaic.Lib.Pipeline.Value

set_option maxRecDepth 16384

noncomputable section

namespace Cert.KernelIdeal.Region1

open Idealize.ShloMosaic Idealize.ShloMosaic.TcCoe Idealize.SL.Sem
open Idealize.ShloMosaic.ValueIdx
open Cert.KernelIdeal Cert.KernelIdeal.Gen

/-- The contracted extent (columns of the left operand, rows of the weight). -/
local notation "KK" => 4
/-- The columns of the weight and of the output. -/
local notation "NN" => 4

variable (V : (c : Dev nD) → (b : Ref sig .tc) → Buf (Elt Ideal) ((c : Thread nD τ).loc b))

/-- The product of the two whole arrays, as the host computes it. -/
abbrev prod (X : FVec Ideal S200000x4 .f32) (Wt : FVec Ideal S4x4 .f32) : FVec Ideal S200000x4 .f32 :=
  Host.dotGeneral (F := Ideal) (DotDims.plain 200000 KK NN) none X Wt

theorem hz : (![0, 0] : Fin 2 → Nat) = fun _ => 0 := funext fun a => by fin_cases a <;> rfl

/-- The body's value at an entry of its block: the row of the left block against the column of the weight. -/
theorem payload_apply (xb : Vec Ideal S4000x4 .f32) (wb : Vec Ideal S4x4 .f32) (p : Fin 4000) (q : Fin NN) :
    k1_pay1 (F := Ideal) xb wb (ix2 p q) = ∑ k : Fin KK, xb (ix2 p k) * wb (ix2 k q) := by
  unfold k1_pay1
  simp only [shapeCast_self]
  exact plain_matmul_zero_apply (M := 4000) (K := KK) (N := NN) none xb wb (ix2 p q)

/-- The host's product at an entry: the row of the left array against the column of the weight. -/
theorem prod_apply (X : FVec Ideal S200000x4 .f32) (Wt : FVec Ideal S4x4 .f32) (r : Fin 200000) (q : Fin NN) :
    prod X Wt (ix2 r q) = ∑ k : Fin KK, X (ix2 r k) * Wt (ix2 k q) :=
  plain_dotGeneral_apply (M := 200000) (K := KK) (N := NN) none _ X Wt (ix2 r q)

/-- The printed index maps, decided over the 50 points: the left operand and the output move one block of rows per
    point, the weight stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The blocks and the arrays of the launch, at their literal types. -/
abbrev xblk (c : Dev nD) (t : Fin cfg1.N) : Vec Ideal S4000x4 .f32 := iblk1 V c 0 t
abbrev wblk (c : Dev nD) (t : Fin cfg1.N) : Vec Ideal S4x4 .f32 := iblk1 V c 1 t
abbrev xarr (c : Dev nD) : FVec Ideal S200000x4 .f32 := V c main_v48
abbrev warr (c : Dev nD) : FVec Ideal S4x4 .f32 := V c main_arg3

/-- Row p of the left block at point t is row t·4000 + p of the left array. -/
theorem xblk_apply (c : Dev nD) (t : Fin cfg1.N) (p : Fin 4000) (k : Fin KK) (hr : t.val * 4000 + p.val < 200000) :
    xblk V c t (ix2 p k) = xarr V c (ix2 ⟨t.val * 4000 + p.val, hr⟩ k) := by
  obtain ⟨e0, e1, e2, e3, e4, e5⟩ := idx_facts t
  show V c main_v48 (((cfg1.win 0).blk t).view.emb (ix2 p k)) = V c main_v48 (ix2 ⟨t.val * 4000 + p.val, hr⟩ k)
  refine congrArg (V c main_v48) (funext fun a => Fin.ext ?_)
  match a with
  | ⟨0, _⟩ => show win1_0.index t (0 : Fin 2) * 4000 + 1 * p.val = t.val * 4000 + p.val; omega
  | ⟨1, _⟩ => show win1_0.index t (1 : Fin 2) * KK + 1 * k.val = k.val; omega

/-- The weight's block at every point is the whole weight. -/
theorem wblk_apply (c : Dev nD) (t : Fin cfg1.N) (k : Fin KK) (q : Fin NN) :
    wblk V c t (ix2 k q) = warr V c (ix2 k q) := by
  obtain ⟨e0, e1, e2, e3, e4, e5⟩ := idx_facts t
  show V c main_arg3 (((cfg1.win 1).blk t).view.emb (ix2 k q)) = V c main_arg3 (ix2 k q)
  refine congrArg (V c main_arg3) (funext fun a => Fin.ext ?_)
  match a with
  | ⟨0, _⟩ => show win1_1.index t (0 : Fin 2) * KK + 1 * k.val = k.val; omega
  | ⟨1, _⟩ => show win1_1.index t (1 : Fin 2) * NN + 1 * q.val = q.val; omega

/-- Entry (p, q) of the output block at point t sits at (t·4000 + p, q) of the output array. -/
theorem oblk_emb (t : Fin cfg1.N) (p : Fin 4000) (q : Fin NN) (hr : t.val * 4000 + p.val < 200000) :
    ((cfg1.win 2).blk t).view.emb (ix2 p q) = (ix2 ⟨t.val * 4000 + p.val, hr⟩ q : S200000x4.Idx) := by
  obtain ⟨e0, e1, e2, e3, e4, e5⟩ := idx_facts t
  refine funext fun a => Fin.ext ?_
  match a with
  | ⟨0, _⟩ => show win1_2.index t (0 : Fin 2) * 4000 + 1 * p.val = t.val * 4000 + p.val; omega
  | ⟨1, _⟩ => show win1_2.index t (1 : Fin 2) * NN + 1 * q.val = q.val; omega

/-- What point t writes back is block t of the product of the arrays the launch found. -/
theorem flushed_eq (c : Dev nD) (t : Fin cfg1.N) :
    (dat1 V c).flushed 2 t = ((cfg1.win 2).blk t).view.read (Elt Ideal) (prod (xarr V c) (warr V c)) := by
  show (cfg1.win 2).cut (grid1.coords t) ((dat1 V c).after 2 t) = _
  rw [after1_2]
  unfold out1_2
  rw [View.canon_unit_zero hz]
  simp only [View.ld_unit_zero (S := S4000x4) hz, View.ld_unit_zero (S := S4x4) hz]
  funext j
  obtain ⟨p, q, rfl⟩ : ∃ (p : Fin 4000) (q : Fin NN), j = ix2 p q := ⟨j 0, j 1, eq_ix2 j⟩
  have ht : t.val < 50 := N_1 ▸ t.isLt
  have hr : t.val * 4000 + p.val < 200000 := by have := p.isLt; omega
  show k1_pay1 (F := Ideal) (xblk V c t) (wblk V c t) (ix2 p q)
    = prod (xarr V c) (warr V c) (((cfg1.win 2).blk t).view.emb (ix2 p q))
  rw [oblk_emb t p q hr, payload_apply, prod_apply]
  exact Finset.sum_congr rfl fun k _ => congrArg₂ (· * ·) (xblk_apply V c t p k hr) (wblk_apply V c t k q)

/-- An index of the output array is in point t's block iff each coordinate is in the block's range on its axis. -/
theorem mem_blk (t : Fin cfg1.N) (i : S200000x4.Idx) :
    i ∈ ((cfg1.win 2).blk t).view.set ↔ ∀ a : Fin 2, win1_2.index t a * S4000x4.size a ≤ (i a).val
      ∧ (i a).val < win1_2.index t a * S4000x4.size a + S4000x4.size a := by
  show i ∈ ((View.whole main_v49).slice (win1_2.rect t)).set ↔ _
  rw [View.set_slice_whole, Rect.mem_set_unit]
  exact Iff.rfl

/-- Row r of the output lies in the block of point r / 4000. -/
theorem cover (i : S200000x4.Idx) :
    ∃ t : Fin cfg1.N, (cfg1.win 2).flush t = true ∧ i ∈ ((cfg1.win 2).blk t).view.set := by
  have hi0 : (i 0).val < 200000 := (i 0).isLt
  have hi1 : (i 1).val < NN := (i 1).isLt
  let t0 : Fin cfg1.N := ⟨(i 0).val / 4000, by rw [show cfg1.N = 50 from N_1]; omega⟩
  obtain ⟨e0, e1, e2, e3, e4, e5⟩ := idx_facts t0
  have e4' : win1_2.index t0 (0 : Fin 2) = (i 0).val / 4000 := e4
  refine ⟨t0, flush1_2 t0, ?_⟩
  rw [mem_blk]
  intro a
  match a with
  | ⟨0, _⟩ =>
    show win1_2.index t0 (0 : Fin 2) * 4000 ≤ (i 0).val ∧ (i 0).val < win1_2.index t0 (0 : Fin 2) * 4000 + 4000
    omega
  | ⟨1, _⟩ =>
    show win1_2.index t0 (1 : Fin 2) * NN ≤ (i 1).val ∧ (i 1).val < win1_2.index t0 (1 : Fin 2) * NN + NN
    omega

/-- After the launch the output array is the host's product of the two arrays the launch found. -/
theorem final (c : Dev nD) : (dat1 V c).arrAt 2 cfg1.N = prod (V c main_v48) (V c main_arg3) :=
  (dat1 V c).arrAt_eq_of_cover 2 (prod (xarr V c) (warr V c)) (fun t _ => flushed_eq V c t) cover

end Cert.KernelIdeal.Region1

end
-- ==== Proof.Region2.lean ====
/-
  The third product of the kernel's program.  The launch walks the 200000 rows of h in 50 blocks of 4000
  rows; at block t the body multiplies rows t·4000 … t·4000+3999 of h by the whole weight, into a zero accumulator, and
  writes the result back as block t of the output.  Over the extended reals the narrowing of both operands to half
  width is the identity (and so is the reshaping of the left block to its own shape), so entry (p, q) of the block is
  Σ_k h[t·4000+p, k] · W[k, q]: entry (t·4000+p, q) of the full product h · W.  The 50 blocks tile the 200000 rows
  exactly (row r lies in block r / 4000), so after the launch the output array is the host's product of the two arrays
  the launch found.
-/
import proofs.«125456_j10368051052900_1_alg».proof.Proof.Gen.KernelIdeal.Frame
import proofs.«125456_j10368051052900_1_alg».proof.Proof.LibPlainDot
import Idealize.ShloMosaic.Lib.Pipeline.Value

set_option maxRecDepth 16384

noncomputable section

namespace Cert.KernelIdeal.Region2

open Idealize.ShloMosaic Idealize.ShloMosaic.TcCoe Idealize.SL.Sem
open Idealize.ShloMosaic.ValueIdx
open Cert.KernelIdeal Cert.KernelIdeal.Gen

/-- The contracted extent (columns of the left operand, rows of the weight). -/
local notation "KK" => 4
/-- The columns of the weight and of the output. -/
local notation "NN" => 2

variable (V : (c : Dev nD) → (b : Ref sig .tc) → Buf (Elt Ideal) ((c : Thread nD τ).loc b))

/-- The product of the two whole arrays, as the host computes it. -/
abbrev prod (X : FVec Ideal S200000x4 .f32) (Wt : FVec Ideal S4x2 .f32) : FVec Ideal S200000x2 .f32 :=
  Host.dotGeneral (F := Ideal) (DotDims.plain 200000 KK NN) none X Wt

theorem hz : (![0, 0] : Fin 2 → Nat) = fun _ => 0 := funext fun a => by fin_cases a <;> rfl

/-- The body's value at an entry of its block: the row of the left block against the column of the weight. -/
theorem payload_apply (xb : Vec Ideal S4000x4 .f32) (wb : Vec Ideal S4x2 .f32) (p : Fin 4000) (q : Fin NN) :
    k2_pay1 (F := Ideal) xb wb (ix2 p q) = ∑ k : Fin KK, xb (ix2 p k) * wb (ix2 k q) := by
  unfold k2_pay1
  simp only [shapeCast_self]
  exact plain_matmul_zero_apply (M := 4000) (K := KK) (N := NN) none xb wb (ix2 p q)

/-- The host's product at an entry: the row of the left array against the column of the weight. -/
theorem prod_apply (X : FVec Ideal S200000x4 .f32) (Wt : FVec Ideal S4x2 .f32) (r : Fin 200000) (q : Fin NN) :
    prod X Wt (ix2 r q) = ∑ k : Fin KK, X (ix2 r k) * Wt (ix2 k q) :=
  plain_dotGeneral_apply (M := 200000) (K := KK) (N := NN) none _ X Wt (ix2 r q)

/-- The printed index maps, decided over the 50 points: the left operand and the output move one block of rows per
    point, the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The blocks and the arrays of the launch, at their literal types. -/
abbrev xblk (c : Dev nD) (t : Fin cfg2.N) : Vec Ideal S4000x4 .f32 := iblk2 V c 0 t
abbrev wblk (c : Dev nD) (t : Fin cfg2.N) : Vec Ideal S4x2 .f32 := iblk2 V c 1 t
abbrev xarr (c : Dev nD) : FVec Ideal S200000x4 .f32 := V c main_v66
abbrev warr (c : Dev nD) : FVec Ideal S4x2 .f32 := V c main_arg5

/-- Row p of the left block at point t is row t·4000 + p of the left array. -/
theorem xblk_apply (c : Dev nD) (t : Fin cfg2.N) (p : Fin 4000) (k : Fin KK) (hr : t.val * 4000 + p.val < 200000) :
    xblk V c t (ix2 p k) = xarr V c (ix2 ⟨t.val * 4000 + p.val, hr⟩ k) := by
  obtain ⟨e0, e1, e2, e3, e4, e5⟩ := idx_facts t
  show V c main_v66 (((cfg2.win 0).blk t).view.emb (ix2 p k)) = V c main_v66 (ix2 ⟨t.val * 4000 + p.val, hr⟩ k)
  refine congrArg (V c main_v66) (funext fun a => Fin.ext ?_)
  match a with
  | ⟨0, _⟩ => show win2_0.index t (0 : Fin 2) * 4000 + 1 * p.val = t.val * 4000 + p.val; omega
  | ⟨1, _⟩ => show win2_0.index t (1 : Fin 2) * KK + 1 * k.val = k.val; omega

/-- The weight's block at every point is the whole weight. -/
theorem wblk_apply (c : Dev nD) (t : Fin cfg2.N) (k : Fin KK) (q : Fin NN) :
    wblk V c t (ix2 k q) = warr V c (ix2 k q) := by
  obtain ⟨e0, e1, e2, e3, e4, e5⟩ := idx_facts t
  show V c main_arg5 (((cfg2.win 1).blk t).view.emb (ix2 k q)) = V c main_arg5 (ix2 k q)
  refine congrArg (V c main_arg5) (funext fun a => Fin.ext ?_)
  match a with
  | ⟨0, _⟩ => show win2_1.index t (0 : Fin 2) * KK + 1 * k.val = k.val; omega
  | ⟨1, _⟩ => show win2_1.index t (1 : Fin 2) * NN + 1 * q.val = q.val; omega

/-- Entry (p, q) of the output block at point t sits at (t·4000 + p, q) of the output array. -/
theorem oblk_emb (t : Fin cfg2.N) (p : Fin 4000) (q : Fin NN) (hr : t.val * 4000 + p.val < 200000) :
    ((cfg2.win 2).blk t).view.emb (ix2 p q) = (ix2 ⟨t.val * 4000 + p.val, hr⟩ q : S200000x2.Idx) := by
  obtain ⟨e0, e1, e2, e3, e4, e5⟩ := idx_facts t
  refine funext fun a => Fin.ext ?_
  match a with
  | ⟨0, _⟩ => show win2_2.index t (0 : Fin 2) * 4000 + 1 * p.val = t.val * 4000 + p.val; omega
  | ⟨1, _⟩ => show win2_2.index t (1 : Fin 2) * NN + 1 * q.val = q.val; omega

/-- What point t writes back is block t of the product of the arrays the launch found. -/
theorem flushed_eq (c : Dev nD) (t : Fin cfg2.N) :
    (dat2 V c).flushed 2 t = ((cfg2.win 2).blk t).view.read (Elt Ideal) (prod (xarr V c) (warr V c)) := by
  show (cfg2.win 2).cut (grid2.coords t) ((dat2 V c).after 2 t) = _
  rw [after2_2]
  unfold out2_2
  rw [View.canon_unit_zero hz]
  simp only [View.ld_unit_zero (S := S4000x4) hz, View.ld_unit_zero (S := S4x2) hz]
  funext j
  obtain ⟨p, q, rfl⟩ : ∃ (p : Fin 4000) (q : Fin NN), j = ix2 p q := ⟨j 0, j 1, eq_ix2 j⟩
  have ht : t.val < 50 := N_2 ▸ t.isLt
  have hr : t.val * 4000 + p.val < 200000 := by have := p.isLt; omega
  show k2_pay1 (F := Ideal) (xblk V c t) (wblk V c t) (ix2 p q)
    = prod (xarr V c) (warr V c) (((cfg2.win 2).blk t).view.emb (ix2 p q))
  rw [oblk_emb t p q hr, payload_apply, prod_apply]
  exact Finset.sum_congr rfl fun k _ => congrArg₂ (· * ·) (xblk_apply V c t p k hr) (wblk_apply V c t k q)

/-- An index of the output array is in point t's block iff each coordinate is in the block's range on its axis. -/
theorem mem_blk (t : Fin cfg2.N) (i : S200000x2.Idx) :
    i ∈ ((cfg2.win 2).blk t).view.set ↔ ∀ a : Fin 2, win2_2.index t a * S4000x2.size a ≤ (i a).val
      ∧ (i a).val < win2_2.index t a * S4000x2.size a + S4000x2.size a := by
  show i ∈ ((View.whole main_v67).slice (win2_2.rect t)).set ↔ _
  rw [View.set_slice_whole, Rect.mem_set_unit]
  exact Iff.rfl

/-- Row r of the output lies in the block of point r / 4000. -/
theorem cover (i : S200000x2.Idx) :
    ∃ t : Fin cfg2.N, (cfg2.win 2).flush t = true ∧ i ∈ ((cfg2.win 2).blk t).view.set := by
  have hi0 : (i 0).val < 200000 := (i 0).isLt
  have hi1 : (i 1).val < NN := (i 1).isLt
  let t0 : Fin cfg2.N := ⟨(i 0).val / 4000, by rw [show cfg2.N = 50 from N_2]; omega⟩
  obtain ⟨e0, e1, e2, e3, e4, e5⟩ := idx_facts t0
  have e4' : win2_2.index t0 (0 : Fin 2) = (i 0).val / 4000 := e4
  refine ⟨t0, flush2_2 t0, ?_⟩
  rw [mem_blk]
  intro a
  match a with
  | ⟨0, _⟩ =>
    show win2_2.index t0 (0 : Fin 2) * 4000 ≤ (i 0).val ∧ (i 0).val < win2_2.index t0 (0 : Fin 2) * 4000 + 4000
    omega
  | ⟨1, _⟩ =>
    show win2_2.index t0 (1 : Fin 2) * NN ≤ (i 1).val ∧ (i 1).val < win2_2.index t0 (1 : Fin 2) * NN + NN
    omega

/-- After the launch the output array is the host's product of the two arrays the launch found. -/
theorem final (c : Dev nD) : (dat2 V c).arrAt 2 cfg2.N = prod (V c main_v66) (V c main_arg5) :=
  (dat2 V c).arrAt_eq_of_cover 2 (prod (xarr V c) (warr V c)) (fun t _ => flushed_eq V c t) cover

end Cert.KernelIdeal.Region2

end
-- ==== Proof.Region3.lean ====
/-
  The last product of the kernel's program: the read-out.  The launch walks the 200000 rows of h in 50 blocks of 4000
  rows; at block t the body multiplies rows t·4000 … t·4000+3999 of h by the whole weight, into a zero accumulator, and
  writes the result back as block t of the output.  Over the extended reals the narrowing of both operands to half
  width is the identity (and so is the reshaping of the left block to its own shape), so entry (p, q) of the block is
  Σ_k h[t·4000+p, k] · W[k, q]: entry (t·4000+p, q) of the full product h · W.  The 50 blocks tile the 200000 rows
  exactly (row r lies in block r / 4000), so after the launch the output array is the host's product of the two arrays
  the launch found.
-/
import proofs.«125456_j10368051052900_1_alg».proof.Proof.Gen.KernelIdeal.Frame
import proofs.«125456_j10368051052900_1_alg».proof.Proof.LibPlainDot
import Idealize.ShloMosaic.Lib.Pipeline.Value

set_option maxRecDepth 16384

noncomputable section

namespace Cert.KernelIdeal.Region3

open Idealize.ShloMosaic Idealize.ShloMosaic.TcCoe Idealize.SL.Sem
open Idealize.ShloMosaic.ValueIdx
open Cert.KernelIdeal Cert.KernelIdeal.Gen

/-- The contracted extent (columns of the left operand, rows of the weight). -/
local notation "KK" => 2
/-- The columns of the weight and of the output. -/
local notation "NN" => 16

variable (V : (c : Dev nD) → (b : Ref sig .tc) → Buf (Elt Ideal) ((c : Thread nD τ).loc b))

/-- The product of the two whole arrays, as the host computes it. -/
abbrev prod (X : FVec Ideal S200000x2 .f32) (Wt : FVec Ideal S2x16 .f32) : FVec Ideal S200000x16 .f32 :=
  Host.dotGeneral (F := Ideal) (DotDims.plain 200000 KK NN) none X Wt

theorem hz : (![0, 0] : Fin 2 → Nat) = fun _ => 0 := funext fun a => by fin_cases a <;> rfl

/-- The body's value at an entry of its block: the row of the left block against the column of the weight. -/
theorem payload_apply (xb : Vec Ideal S4000x2 .f32) (wb : Vec Ideal S2x16 .f32) (p : Fin 4000) (q : Fin NN) :
    k3_pay1 (F := Ideal) xb wb (ix2 p q) = ∑ k : Fin KK, xb (ix2 p k) * wb (ix2 k q) := by
  unfold k3_pay1
  simp only [shapeCast_self]
  exact plain_matmul_zero_apply (M := 4000) (K := KK) (N := NN) none xb wb (ix2 p q)

/-- The host's product at an entry: the row of the left array against the column of the weight. -/
theorem prod_apply (X : FVec Ideal S200000x2 .f32) (Wt : FVec Ideal S2x16 .f32) (r : Fin 200000) (q : Fin NN) :
    prod X Wt (ix2 r q) = ∑ k : Fin KK, X (ix2 r k) * Wt (ix2 k q) :=
  plain_dotGeneral_apply (M := 200000) (K := KK) (N := NN) none _ X Wt (ix2 r q)

/-- The printed index maps, decided over the 50 points: the left operand and the output move one block of rows per
    point, the weight stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The blocks and the arrays of the launch, at their literal types. -/
abbrev xblk (c : Dev nD) (t : Fin cfg3.N) : Vec Ideal S4000x2 .f32 := iblk3 V c 0 t
abbrev wblk (c : Dev nD) (t : Fin cfg3.N) : Vec Ideal S2x16 .f32 := iblk3 V c 1 t
abbrev xarr (c : Dev nD) : FVec Ideal S200000x2 .f32 := V c main_v84
abbrev warr (c : Dev nD) : FVec Ideal S2x16 .f32 := V c main_arg7

/-- Row p of the left block at point t is row t·4000 + p of the left array. -/
theorem xblk_apply (c : Dev nD) (t : Fin cfg3.N) (p : Fin 4000) (k : Fin KK) (hr : t.val * 4000 + p.val < 200000) :
    xblk V c t (ix2 p k) = xarr V c (ix2 ⟨t.val * 4000 + p.val, hr⟩ k) := by
  obtain ⟨e0, e1, e2, e3, e4, e5⟩ := idx_facts t
  show V c main_v84 (((cfg3.win 0).blk t).view.emb (ix2 p k)) = V c main_v84 (ix2 ⟨t.val * 4000 + p.val, hr⟩ k)
  refine congrArg (V c main_v84) (funext fun a => Fin.ext ?_)
  match a with
  | ⟨0, _⟩ => show win3_0.index t (0 : Fin 2) * 4000 + 1 * p.val = t.val * 4000 + p.val; omega
  | ⟨1, _⟩ => show win3_0.index t (1 : Fin 2) * KK + 1 * k.val = k.val; omega

/-- The weight's block at every point is the whole weight. -/
theorem wblk_apply (c : Dev nD) (t : Fin cfg3.N) (k : Fin KK) (q : Fin NN) :
    wblk V c t (ix2 k q) = warr V c (ix2 k q) := by
  obtain ⟨e0, e1, e2, e3, e4, e5⟩ := idx_facts t
  show V c main_arg7 (((cfg3.win 1).blk t).view.emb (ix2 k q)) = V c main_arg7 (ix2 k q)
  refine congrArg (V c main_arg7) (funext fun a => Fin.ext ?_)
  match a with
  | ⟨0, _⟩ => show win3_1.index t (0 : Fin 2) * KK + 1 * k.val = k.val; omega
  | ⟨1, _⟩ => show win3_1.index t (1 : Fin 2) * NN + 1 * q.val = q.val; omega

/-- Entry (p, q) of the output block at point t sits at (t·4000 + p, q) of the output array. -/
theorem oblk_emb (t : Fin cfg3.N) (p : Fin 4000) (q : Fin NN) (hr : t.val * 4000 + p.val < 200000) :
    ((cfg3.win 2).blk t).view.emb (ix2 p q) = (ix2 ⟨t.val * 4000 + p.val, hr⟩ q : S200000x16.Idx) := by
  obtain ⟨e0, e1, e2, e3, e4, e5⟩ := idx_facts t
  refine funext fun a => Fin.ext ?_
  match a with
  | ⟨0, _⟩ => show win3_2.index t (0 : Fin 2) * 4000 + 1 * p.val = t.val * 4000 + p.val; omega
  | ⟨1, _⟩ => show win3_2.index t (1 : Fin 2) * NN + 1 * q.val = q.val; omega

/-- What point t writes back is block t of the product of the arrays the launch found. -/
theorem flushed_eq (c : Dev nD) (t : Fin cfg3.N) :
    (dat3 V c).flushed 2 t = ((cfg3.win 2).blk t).view.read (Elt Ideal) (prod (xarr V c) (warr V c)) := by
  show (cfg3.win 2).cut (grid3.coords t) ((dat3 V c).after 2 t) = _
  rw [after3_2]
  unfold out3_2
  rw [View.canon_unit_zero hz]
  simp only [View.ld_unit_zero (S := S4000x2) hz, View.ld_unit_zero (S := S2x16) hz]
  funext j
  obtain ⟨p, q, rfl⟩ : ∃ (p : Fin 4000) (q : Fin NN), j = ix2 p q := ⟨j 0, j 1, eq_ix2 j⟩
  have ht : t.val < 50 := N_3 ▸ t.isLt
  have hr : t.val * 4000 + p.val < 200000 := by have := p.isLt; omega
  show k3_pay1 (F := Ideal) (xblk V c t) (wblk V c t) (ix2 p q)
    = prod (xarr V c) (warr V c) (((cfg3.win 2).blk t).view.emb (ix2 p q))
  rw [oblk_emb t p q hr, payload_apply, prod_apply]
  exact Finset.sum_congr rfl fun k _ => congrArg₂ (· * ·) (xblk_apply V c t p k hr) (wblk_apply V c t k q)

/-- An index of the output array is in point t's block iff each coordinate is in the block's range on its axis. -/
theorem mem_blk (t : Fin cfg3.N) (i : S200000x16.Idx) :
    i ∈ ((cfg3.win 2).blk t).view.set ↔ ∀ a : Fin 2, win3_2.index t a * S4000x16.size a ≤ (i a).val
      ∧ (i a).val < win3_2.index t a * S4000x16.size a + S4000x16.size a := by
  show i ∈ ((View.whole main_v85).slice (win3_2.rect t)).set ↔ _
  rw [View.set_slice_whole, Rect.mem_set_unit]
  exact Iff.rfl

/-- Row r of the output lies in the block of point r / 4000. -/
theorem cover (i : S200000x16.Idx) :
    ∃ t : Fin cfg3.N, (cfg3.win 2).flush t = true ∧ i ∈ ((cfg3.win 2).blk t).view.set := by
  have hi0 : (i 0).val < 200000 := (i 0).isLt
  have hi1 : (i 1).val < NN := (i 1).isLt
  let t0 : Fin cfg3.N := ⟨(i 0).val / 4000, by rw [show cfg3.N = 50 from N_3]; omega⟩
  obtain ⟨e0, e1, e2, e3, e4, e5⟩ := idx_facts t0
  have e4' : win3_2.index t0 (0 : Fin 2) = (i 0).val / 4000 := e4
  refine ⟨t0, flush3_2 t0, ?_⟩
  rw [mem_blk]
  intro a
  match a with
  | ⟨0, _⟩ =>
    show win3_2.index t0 (0 : Fin 2) * 4000 ≤ (i 0).val ∧ (i 0).val < win3_2.index t0 (0 : Fin 2) * 4000 + 4000
    omega
  | ⟨1, _⟩ =>
    show win3_2.index t0 (1 : Fin 2) * NN ≤ (i 1).val ∧ (i 1).val < win3_2.index t0 (1 : Fin 2) * NN + NN
    omega

/-- After the launch the output array is the host's product of the two arrays the launch found. -/
theorem final (c : Dev nD) : (dat3 V c).arrAt 2 cfg3.N = prod (V c main_v84) (V c main_arg7) :=
  (dat3 V c).arrAt_eq_of_cover 2 (prod (xarr V c) (warr V c)) (fun t _ => flushed_eq V c t) cover

end Cert.KernelIdeal.Region3

end
-- ==== Proof.KernelValue.lean ====
/-
  What the kernel's program leaves in its two result buffers, over the extended reals, read against the reference's
  own operations.

  Both programs apply the same host operations in the same order: from the edge list they build the source and
  destination index vectors (each edge list row followed by 0 … 199999 for the self loops) and the per-edge weight
  (the product of the two endpoints' inverse square-root degrees); then three times a layer "gather the rows of h at
  the sources, scale each by its edge's weight, add them up at the destinations, add the bias, take tanh"; then a last
  product and a bias.  They differ in one thing only: where the reference multiplies h by a weight matrix on the host,
  the kernel's program launches a blocked product.  A launch's output array is that host product of the two arrays it
  found (Region0 … Region3), every other buffer is left as it was, and a stretch of host operations leaves every
  buffer it does not write as it was.  So, boundary by boundary, the buffers that later operations read hold the
  reference's value of the same name at the kernel's own arguments; the host layers themselves are never opened.
-/
import proofs.«125456_j10368051052900_1_alg».proof.Proof.Gen.KernelIdeal.Frame
import proofs.«125456_j10368051052900_1_alg».proof.Proof.RefRead
import proofs.«125456_j10368051052900_1_alg».proof.Proof.EdgeWeights
import proofs.«125456_j10368051052900_1_alg».proof.Proof.Region0
import proofs.«125456_j10368051052900_1_alg».proof.Proof.Region1
import proofs.«125456_j10368051052900_1_alg».proof.Proof.Region2
import proofs.«125456_j10368051052900_1_alg».proof.Proof.Region3

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v30 val_main_v31 val_main_v48 val_main_v49 val_main_v66 val_main_v67
  val_main_v84 val_main_v85 val_main_v88)

variable (m : (ℓ : Loc nD τ sig) → Buf (Elt Ideal) ℓ) (ρ : Dev nD → PrngReg)

/-! ## The kernel's argument arrays, at their literal types -/

abbrev X0 (c : Dev nD) : Vec Ideal S200000x128 .f32 := m ((c : Thread nD τ).loc main_arg0)
abbrev X1 (c : Dev nD) : Vec Ideal S128x4 .f32 := m ((c : Thread nD τ).loc main_arg1)
abbrev X2 (c : Dev nD) : Vec Ideal S4 .f32 := m ((c : Thread nD τ).loc main_arg2)
abbrev X3 (c : Dev nD) : Vec Ideal S4x4 .f32 := m ((c : Thread nD τ).loc main_arg3)
abbrev X4 (c : Dev nD) : Vec Ideal S4 .f32 := m ((c : Thread nD τ).loc main_arg4)
abbrev X5 (c : Dev nD) : Vec Ideal S4x2 .f32 := m ((c : Thread nD τ).loc main_arg5)
abbrev X6 (c : Dev nD) : Vec Ideal S2 .f32 := m ((c : Thread nD τ).loc main_arg6)
abbrev X7 (c : Dev nD) : Vec Ideal S2x16 .f32 := m ((c : Thread nD τ).loc main_arg7)
abbrev X8 (c : Dev nD) : Vec Ideal S16 .f32 := m ((c : Thread nD τ).loc main_arg8)
abbrev X9 (c : Dev nD) : (⟨S2x6400000, .i32⟩ : BufTy).Contents (Elt Ideal) := m ((c : Thread nD τ).loc main_arg9)

/-! ## Buffers that are written once and read later -/

/-- The float arguments, the two index vectors and the per-edge weight: what the layers and the launches read of
    earlier stretches. -/
def carried : List (Ref sig .tc) :=
  [main_arg0, main_arg1, main_arg2, main_arg3, main_arg4, main_arg5, main_arg6, main_arg7, main_arg8, main_v3, main_v6, main_v30]

/-- A stretch of host operations leaves a buffer none of them writes as it was. -/
local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- A statement about every carried buffer is the conjunction of its twelve instances. -/
local macro "each_carried" tac:tacticSeq : tactic => `(tactic|
  exact List.forall_iff_forall_mem.mp (by
    simp only [carried, List.Forall]
    repeat' apply And.intro
    all_goals $tac))

theorem keep_host1 (c : Dev nD) : ∀ b ∈ carried, W5 m ρ c (Proc.devRef .tc b) = W4 m ρ c (Proc.devRef .tc b) := by
  each_carried (unwritten hostOps1)
theorem keep_host2 (c : Dev nD) : ∀ b ∈ carried, W7 m ρ c (Proc.devRef .tc b) = W6 m ρ c (Proc.devRef .tc b) := by
  each_carried (unwritten hostOps2)
theorem keep_host3 (c : Dev nD) : ∀ b ∈ carried, W9 m ρ c (Proc.devRef .tc b) = W8 m ρ c (Proc.devRef .tc b) := by
  each_carried (unwritten hostOps3)

/-- A launch leaves an input window's array as it found it. -/
theorem in0 (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
theorem in1 (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
theorem in2 (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))
theorem in3 (c : Dev nD) (w : Fin cfg3.W) (hw : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hw _).trans (A_eq3 (V9 m ρ) c w))

theorem keep_launch0 (c : Dev nD) : ∀ b ∈ carried, W4 m ρ c (Proc.devRef .tc b) = W3 m ρ c (Proc.devRef .tc b) := by
  each_carried (first | exact W4_of_ne m ρ c _ (by decide) | exact in0 m ρ c 0 rfl | exact in0 m ρ c 1 rfl)
theorem keep_launch1 (c : Dev nD) : ∀ b ∈ carried, W6 m ρ c (Proc.devRef .tc b) = W5 m ρ c (Proc.devRef .tc b) := by
  each_carried (first | exact W6_of_ne m ρ c _ (by decide) | exact in1 m ρ c 1 rfl)
theorem keep_launch2 (c : Dev nD) : ∀ b ∈ carried, W8 m ρ c (Proc.devRef .tc b) = W7 m ρ c (Proc.devRef .tc b) := by
  each_carried (first | exact W8_of_ne m ρ c _ (by decide) | exact in2 m ρ c 1 rfl)
theorem keep_launch3 (c : Dev nD) : ∀ b ∈ carried, W10 m ρ c (Proc.devRef .tc b) = W9 m ρ c (Proc.devRef .tc b) := by
  each_carried (first | exact W10_of_ne m ρ c _ (by decide) | exact in3 m ρ c 1 rfl)

/-! ## What a carried buffer holds at each later boundary: what it held before the first launch -/

theorem keep4 (c : Dev nD) : ∀ b ∈ carried, W4 m ρ c (Proc.devRef .tc b) = W3 m ρ c (Proc.devRef .tc b) :=
  keep_launch0 m ρ c
theorem keep5 (c : Dev nD) : ∀ b ∈ carried, W5 m ρ c (Proc.devRef .tc b) = W3 m ρ c (Proc.devRef .tc b) :=
  fun b hb => (keep_host1 m ρ c b hb).trans (keep4 m ρ c b hb)
theorem keep6 (c : Dev nD) : ∀ b ∈ carried, W6 m ρ c (Proc.devRef .tc b) = W3 m ρ c (Proc.devRef .tc b) :=
  fun b hb => (keep_launch1 m ρ c b hb).trans (keep5 m ρ c b hb)
theorem keep7 (c : Dev nD) : ∀ b ∈ carried, W7 m ρ c (Proc.devRef .tc b) = W3 m ρ c (Proc.devRef .tc b) :=
  fun b hb => (keep_host2 m ρ c b hb).trans (keep6 m ρ c b hb)
theorem keep8 (c : Dev nD) : ∀ b ∈ carried, W8 m ρ c (Proc.devRef .tc b) = W3 m ρ c (Proc.devRef .tc b) :=
  fun b hb => (keep_launch2 m ρ c b hb).trans (keep7 m ρ c b hb)
theorem keep9 (c : Dev nD) : ∀ b ∈ carried, W9 m ρ c (Proc.devRef .tc b) = W3 m ρ c (Proc.devRef .tc b) :=
  fun b hb => (keep_host3 m ρ c b hb).trans (keep8 m ρ c b hb)
theorem keep10 (c : Dev nD) : ∀ b ∈ carried, W10 m ρ c (Proc.devRef .tc b) = W3 m ρ c (Proc.devRef .tc b) :=
  fun b hb => (keep_launch3 m ρ c b hb).trans (keep9 m ρ c b hb)

/-! ## Before the first launch -/

/-- No host operation writes an argument: before the first launch each still holds its launch contents. -/
theorem arg3 (c : Dev nD) :
    ∀ b ∈ [main_arg0, main_arg1, main_arg2, main_arg3, main_arg4, main_arg5, main_arg6, main_arg7, main_arg8],
      W3 m ρ c (Proc.devRef .tc b) = W0 m ρ c (Proc.devRef .tc b) :=
  List.forall_iff_forall_mem.mp (by
    simp only [List.Forall]
    repeat' apply And.intro
    all_goals exact ((by unwritten hostOps0_2 : W3 m ρ c _ = W2 m ρ c _).trans
      ((by unwritten hostOps0_1 : W2 m ρ c _ = W1 m ρ c _).trans (by unwritten hostOps0 : W1 m ρ c _ = W0 m ρ c _))))

/-- The two index vectors and the per-edge weight before the first launch are the reference's, at the kernel's edge
    list (EdgeWeights). -/
theorem src3 (c : Dev nD) : W3 m ρ c (Proc.devRef .tc main_v3) = val_main_v3 (X9 m c) := Edges.src3 m ρ c
theorem dst3 (c : Dev nD) : W3 m ρ c (Proc.devRef .tc main_v6) = val_main_v6 (X9 m c) := Edges.dst3 m ρ c
theorem norm3 (c : Dev nD) : W3 m ρ c (Proc.devRef .tc main_v30) = val_main_v30 (X9 m c) := Edges.norm3 m ρ c

/-! ## First layer -/

theorem v31 (c : Dev nD) : W4 m ρ c (Proc.devRef .tc main_v31) = val_main_v31 (X0 m c) (X1 m c) := by
  refine (W4_arr m ρ c 2).trans ((Region0.final (V3 m ρ) c).trans ?_)
  show Region0.prod (W3 m ρ c (Proc.devRef .tc main_arg0)) (W3 m ρ c (Proc.devRef .tc main_arg1)) = _
  rw [arg3 m ρ c main_arg0 (by simp), arg3 m ρ c main_arg1 (by simp)]
  rfl

theorem v48 (c : Dev nD) : W5 m ρ c (Proc.devRef .tc main_v48) = val_main_v48 (X0 m c) (X1 m c) (X2 m c) (X9 m c) := by
  show StableHlo.after hostOps1 (W4 m ρ c) (Proc.devRef .tc main_v48) = _
  after_results_simp
  rw [v31 m ρ c, keep4 m ρ c main_v3 (by simp [carried]), keep4 m ρ c main_v6 (by simp [carried]),
    keep4 m ρ c main_v30 (by simp [carried]), keep4 m ρ c main_arg2 (by simp [carried]),
    src3 m ρ c, dst3 m ρ c, norm3 m ρ c, arg3 m ρ c main_arg2 (by simp)]
  rfl

/-! ## Second layer -/

theorem v49 (c : Dev nD) :
    W6 m ρ c (Proc.devRef .tc main_v49) = val_main_v49 (X0 m c) (X1 m c) (X2 m c) (X3 m c) (X9 m c) := by
  refine (W6_arr m ρ c 2).trans ((Region1.final (V5 m ρ) c).trans ?_)
  show Region1.prod (W5 m ρ c (Proc.devRef .tc main_v48)) (W5 m ρ c (Proc.devRef .tc main_arg3)) = _
  rw [v48 m ρ c, keep5 m ρ c main_arg3 (by simp [carried]), arg3 m ρ c main_arg3 (by simp)]
  rfl

theorem v66 (c : Dev nD) :
    W7 m ρ c (Proc.devRef .tc main_v66) = val_main_v66 (X0 m c) (X1 m c) (X2 m c) (X3 m c) (X4 m c) (X9 m c) := by
  show StableHlo.after hostOps2 (W6 m ρ c) (Proc.devRef .tc main_v66) = _
  after_results_simp
  rw [v49 m ρ c, keep6 m ρ c main_v3 (by simp [carried]), keep6 m ρ c main_v6 (by simp [carried]),
    keep6 m ρ c main_v30 (by simp [carried]), keep6 m ρ c main_arg4 (by simp [carried]),
    src3 m ρ c, dst3 m ρ c, norm3 m ρ c, arg3 m ρ c main_arg4 (by simp)]
  rfl

/-! ## Third layer -/

theorem v67 (c : Dev nD) :
    W8 m ρ c (Proc.devRef .tc main_v67) = val_main_v67 (X0 m c) (X1 m c) (X2 m c) (X3 m c) (X4 m c) (X5 m c) (X9 m c) := by
  refine (W8_arr m ρ c 2).trans ((Region2.final (V7 m ρ) c).trans ?_)
  show Region2.prod (W7 m ρ c (Proc.devRef .tc main_v66)) (W7 m ρ c (Proc.devRef .tc main_arg5)) = _
  rw [v66 m ρ c, keep7 m ρ c main_arg5 (by simp [carried]), arg3 m ρ c main_arg5 (by simp)]
  rfl

theorem v84 (c : Dev nD) :
    W9 m ρ c (Proc.devRef .tc main_v84)
      = val_main_v84 (X0 m c) (X1 m c) (X2 m c) (X3 m c) (X4 m c) (X5 m c) (X6 m c) (X9 m c) := by
  show StableHlo.after hostOps3 (W8 m ρ c) (Proc.devRef .tc main_v84) = _
  after_results_simp
  rw [v67 m ρ c, keep8 m ρ c main_v3 (by simp [carried]), keep8 m ρ c main_v6 (by simp [carried]),
    keep8 m ρ c main_v30 (by simp [carried]), keep8 m ρ c main_arg6 (by simp [carried]),
    src3 m ρ c, dst3 m ρ c, norm3 m ρ c, arg3 m ρ c main_arg6 (by simp)]
  rfl

/-! ## The last product and the results -/

theorem v85 (c : Dev nD) :
    W10 m ρ c (Proc.devRef .tc main_v85)
      = val_main_v85 (X0 m c) (X1 m c) (X2 m c) (X3 m c) (X4 m c) (X5 m c) (X6 m c) (X7 m c) (X9 m c) := by
  refine (W10_arr m ρ c 2).trans ((Region3.final (V9 m ρ) c).trans ?_)
  show Region3.prod (W9 m ρ c (Proc.devRef .tc main_v84)) (W9 m ρ c (Proc.devRef .tc main_arg7)) = _
  rw [v84 m ρ c, keep9 m ρ c main_arg7 (by simp [carried]), arg3 m ρ c main_arg7 (by simp)]
  rfl

/-- The first result: the last product plus its bias. -/
theorem out0 (c : Dev nD) :
    W11 m ρ c (Proc.devRef .tc main_v88)
      = val_main_v88 (X0 m c) (X1 m c) (X2 m c) (X3 m c) (X4 m c) (X5 m c) (X6 m c) (X7 m c) (X8 m c) (X9 m c) := by
  show StableHlo.after hostOps4 (W10 m ρ c) (Proc.devRef .tc main_v88) = _
  after_results
  rw [v85 m ρ c, keep10 m ρ c main_arg8 (by simp [carried]), arg3 m ρ c main_arg8 (by simp)]
  rfl

/-- The second result: the third layer's output, which the last launch only reads and the last stretch does not
    write. -/
theorem out1 (c : Dev nD) :
    W11 m ρ c (Proc.devRef .tc main_v84)
      = val_main_v84 (X0 m c) (X1 m c) (X2 m c) (X3 m c) (X4 m c) (X5 m c) (X6 m c) (X9 m c) :=
  (by unwritten hostOps4 : W11 m ρ c (Proc.devRef .tc main_v84) = W10 m ρ c (Proc.devRef .tc main_v84)).trans
    ((in3 m ρ c 0 rfl).trans (v84 m ρ c))

end Cert.KernelIdeal.Stages

end
-- ==== Proof.lean ====
/-
  A three-layer graph convolution with a linear read-out, on 200000 nodes and 6400000 directed edges plus one self loop
  per node.  Each layer is h ↦ tanh(A · (h W) + b), where A adds up, at every destination node, the rows of h W at the
  sources of its incoming edges, each scaled by deg(src)^(-1/2) · deg(dst)^(-1/2); the read-out is h W_c + b_c.  The
  reference forms every product h W with one host matrix product.  The kernel's program forms it by a launch that
  walks the 200000 rows in 50 blocks of 4000, multiplies each block by the whole weight after narrowing both to half
  width, accumulates in full width from zero, and writes the block of the result back.  Everything around the four
  products (the index vectors, the edge weights, gather, scaling, scatter-add, bias, tanh) is the same sequence of host
  operations in both programs.

  Over the extended reals narrowing is the identity and a block's product is the corresponding 4000 rows of the whole
  product, each entry the same sum Σ_k h[r,k] · W[k,c] the host forms; the blocks tile the rows exactly.  So each
  launch's output array is the host product of its two input arrays, and the two programs, from memories that agree
  on the arguments, end with the same two results.  The precondition (finite inputs) is not needed for this: no
  product is moved across a sum.

  The frames of the two kernel programs are the generated ones; the reference's frame is its generated run with the
  results dropped; the idealization rewrote nothing, so there is nothing to preserve.
-/
import proofs.«125456_j10368051052900_1_alg».proof.Defs
import proofs.«125456_j10368051052900_1_alg».proof.Proof.Gen.Kernel
import proofs.«125456_j10368051052900_1_alg».proof.Proof.Gen.Kernel.Frame
import proofs.«125456_j10368051052900_1_alg».proof.Proof.Gen.KernelIdeal
import proofs.«125456_j10368051052900_1_alg».proof.Proof.Gen.KernelIdeal.Frame
import proofs.«125456_j10368051052900_1_alg».proof.Proof.Gen.ReferenceIdeal
import proofs.«125456_j10368051052900_1_alg».proof.Proof.RefRun
import proofs.«125456_j10368051052900_1_alg».proof.Proof.RefRead
import proofs.«125456_j10368051052900_1_alg».proof.Proof.Gen.Pre_finite_inputs
import proofs.«125456_j10368051052900_1_alg».proof.Proof.KernelRun
import proofs.«125456_j10368051052900_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The two programs end with the same results.  The kernel's results are what its last boundary holds at the two
    result buffers; those are the reference's last two stages at the kernel's arguments (Stages.out0, Stages.out1), and
    the reference's run ends at the same stages of its own arguments, which agree with the kernel's. -/
theorem algebraic : Cert.algebraic_KernelIdeal_ReferenceIdeal := by
  intro m ρ m' ρ' _ hagree
  refine ⟨fun c => Cert.KernelIdeal.Gen.W11 m ρ c (Proc.devRef .tc Cert.KernelIdeal.main_v88),
    fun c => Cert.KernelIdeal.Gen.W11 m ρ c (Proc.devRef .tc Cert.KernelIdeal.main_v84), ?_, ?_⟩
  · refine (θ_run Cert.KernelIdeal.defs _ _).mono (fun r h c => ?_) (Cert.KernelIdeal.Run.run_all (F := Ideal) m ρ)
    exact ⟨h c _ (Cert.KernelIdeal.Gen.mem_uc Cert.KernelIdeal.main_v88 (by decide)),
      h c _ (Cert.KernelIdeal.Gen.mem_uc Cert.KernelIdeal.main_v84 (by decide)),
      (h c _ (Cert.KernelIdeal.Gen.mem_uc Cert.KernelIdeal.main_arg0 (by decide))).trans (Cert.KernelIdeal.Gen.W11_main_arg0 m ρ c),
      (h c _ (Cert.KernelIdeal.Gen.mem_uc Cert.KernelIdeal.main_arg1 (by decide))).trans (Cert.KernelIdeal.Gen.W11_main_arg1 m ρ c),
      (h c _ (Cert.KernelIdeal.Gen.mem_uc Cert.KernelIdeal.main_arg2 (by decide))).trans (Cert.KernelIdeal.Gen.W11_main_arg2 m ρ c),
      (h c _ (Cert.KernelIdeal.Gen.mem_uc Cert.KernelIdeal.main_arg3 (by decide))).trans (Cert.KernelIdeal.Gen.W11_main_arg3 m ρ c),
      (h c _ (Cert.KernelIdeal.Gen.mem_uc Cert.KernelIdeal.main_arg4 (by decide))).trans (Cert.KernelIdeal.Gen.W11_main_arg4 m ρ c),
      (h c _ (Cert.KernelIdeal.Gen.mem_uc Cert.KernelIdeal.main_arg5 (by decide))).trans (Cert.KernelIdeal.Gen.W11_main_arg5 m ρ c),
      (h c _ (Cert.KernelIdeal.Gen.mem_uc Cert.KernelIdeal.main_arg6 (by decide))).trans (Cert.KernelIdeal.Gen.W11_main_arg6 m ρ c),
      (h c _ (Cert.KernelIdeal.Gen.mem_uc Cert.KernelIdeal.main_arg7 (by decide))).trans (Cert.KernelIdeal.Gen.W11_main_arg7 m ρ c),
      (h c _ (Cert.KernelIdeal.Gen.mem_uc Cert.KernelIdeal.main_arg8 (by decide))).trans (Cert.KernelIdeal.Gen.W11_main_arg8 m ρ c),
      (h c _ (Cert.KernelIdeal.Gen.mem_uc Cert.KernelIdeal.main_arg9 (by decide))).trans (Cert.KernelIdeal.Gen.W11_main_arg9 m ρ c)⟩
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v88_eq, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2]
      exact (Cert.KernelIdeal.Stages.out0 m ρ c).symm
    · rw [Cert.ReferenceIdeal.ReadP.val_main_v84_eq, (hagree c).1, (hagree c).2.1, (hagree c).2.2.1, (hagree c).2.2.2.1,
        (hagree c).2.2.2.2.1, (hagree c).2.2.2.2.2.1, (hagree c).2.2.2.2.2.2.1, (hagree c).2.2.2.2.2.2.2.2.2]
      exact (Cert.KernelIdeal.Stages.out1 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
